-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x640 : Shape := ⟨2, ![50000, 640]⟩
abbrev S200000x2 : Shape := ⟨2, ![200000, 2]⟩
abbrev S640x64 : Shape := ⟨2, ![640, 64]⟩
abbrev S64 : Shape := ⟨1, ![64]⟩
abbrev S64x64 : Shape := ⟨2, ![64, 64]⟩
abbrev S64x640 : Shape := ⟨2, ![64, 640]⟩
abbrev S640 : Shape := ⟨1, ![640]⟩
abbrev S_ : Shape := ⟨0, ![]⟩

class Facts : Prop where
  bcast_S_S50000x640 : S_.BroadcastsInDim S50000x640 (![] : Fin 0 → Fin S50000x640.rank)
  reducesTo_S50000x640_S_d0_1 : S50000x640.ReducesTo [0, 1] S_
  h_S_ : 0 < S_.numel
  bcast_S_S640x64 : S_.BroadcastsInDim S640x64 (![] : Fin 0 → Fin S640x64.rank)
  reducesTo_S640x64_S_d0_1 : S640x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x640 : S_.BroadcastsInDim S64x640 (![] : Fin 0 → Fin S64x640.rank)
  reducesTo_S64x640_S_d0_1 : S64x640.ReducesTo [0, 1] S_
  bcast_S_S640 : S_.BroadcastsInDim S640 (![] : Fin 0 → Fin S640.rank)
  reducesTo_S640_S_d0 : S640.ReducesTo [0] S_
  bcast_S_S200000x2 : S_.BroadcastsInDim S200000x2 (![] : Fin 0 → Fin S200000x2.rank)
  reducesTo_S200000x2_S_d0_1 : S200000x2.ReducesTo [0, 1] S_

variable [Facts]

def fn_part2 {F : FTy → Type} [FloatOps F] (main_arg1 : IVec S200000x2 32) (main_v33 : IVec S_ 1) : IVec S_ 1 :=
  let main_c_12 : IVec S_ 32 := constantI S_ 32 0#32
  let main_v34 : IVec S200000x2 32 := broadcastInDim S200000x2 ![] bcast_S_S200000x2 main_c_12
  let main_v35 : IVec S200000x2 1 := cmpi .sge main_arg1 main_v34
  let main_c_13 : IVec S_ 32 := constantI S_ 32 50000#32
  let main_v36 : IVec S200000x2 32 := broadcastInDim S200000x2 ![] bcast_S_S200000x2 main_c_13
  let main_v37 : IVec S200000x2 1 := cmpi .slt main_arg1 main_v36
  let main_v38 : IVec S200000x2 1 := andi main_v35 main_v37
  let main_c_14 : IVec S_ 1 := constantI S_ 1 1#1
  let main_v39 : IVec S_ 1 := (fun x v => Host.reduce IntOp.andi x v reducesTo_S200000x2_S_d0_1 h_S_) main_v38 main_c_14
  let main_v40 : IVec S_ 1 := andi main_v33 main_v39
  main_v40

def fn_part1 {F : FTy → Type} [FloatOps F] (main_arg1 : IVec S200000x2 32) (main_arg5 : FVec F S64 .f32) (main_arg6 : FVec F S64x640 .f32) (main_arg7 : FVec F S640 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x640 .f32 := Host.absf main_arg6
  let main_cst_8 : FVec F S_ .f32 := constant S_ .f32 0x7F800000#32
  let main_v25 : FVec F S64x640 .f32 := broadcastInDim S64x640 ![] bcast_S_S64x640 main_cst_8
  let main_v26 : IVec S64x640 1 := cmpf .olt main_v24 main_v25
  let main_c_9 : IVec S_ 1 := constantI S_ 1 1#1
  let main_v27 : IVec S_ 1 := (fun x v => Host.reduce IntOp.andi x v reducesTo_S64x640_S_d0_1 h_S_) main_v26 main_c_9
  let main_v28 : IVec S_ 1 := andi main_v23 main_v27
  let main_v29 : FVec F S640 .f32 := Host.absf main_arg7
  let main_cst_10 : FVec F S_ .f32 := constant S_ .f32 0x7F800000#32
  let main_v30 : FVec F S640 .f32 := broadcastInDim S640 ![] bcast_S_S640 main_cst_10
  let main_v31 : IVec S640 1 := cmpf .olt main_v29 main_v30
  let main_c_11 : IVec S_ 1 := constantI S_ 1 1#1
  let main_v32 : IVec S_ 1 := (fun x v => Host.reduce IntOp.andi x v reducesTo_S640_S_d0 h_S_) main_v31 main_c_11
  let main_v33 : IVec S_ 1 := andi main_v28 main_v32
  fn_part2 (F := F) main_arg1 main_v33

def fn {F : FTy → Type} [FloatOps F] (main_arg0 : FVec F S50000x640 .f32) (main_arg1 : IVec S200000x2 32) (main_arg2 : FVec F S640x64 .f32) (main_arg3 : FVec F S64 .f32) (main_arg4 : FVec F S64x64 .f32) (main_arg5 : FVec F S64 .f32) (main_arg6 : FVec F S64x640 .f32) (main_arg7 : FVec F S640 .f32) : IVec S_ 1 :=
  let main_v0 : FVec F S50000x640 .f32 := Host.absf main_arg0
  let main_cst : FVec F S_ .f32 := constant S_ .f32 0x7F800000#32
  let main_v1 : FVec F S50000x640 .f32 := broadcastInDim S50000x640 ![] bcast_S_S50000x640 main_cst
  let main_v2 : IVec S50000x640 1 := cmpf .olt main_v0 main_v1
  let main_c : IVec S_ 1 := constantI S_ 1 1#1
  let main_v3 : IVec S_ 1 := (fun x v => Host.reduce IntOp.andi x v reducesTo_S50000x640_S_d0_1 h_S_) main_v2 main_c
  let main_v4 : FVec F S640x64 .f32 := Host.absf main_arg2
  let main_cst_0 : FVec F S_ .f32 := constant S_ .f32 0x7F800000#32
  let main_v5 : FVec F S640x64 .f32 := broadcastInDim S640x64 ![] bcast_S_S640x64 main_cst_0
  let main_v6 : IVec S640x64 1 := cmpf .olt main_v4 main_v5
  let main_c_1 : IVec S_ 1 := constantI S_ 1 1#1
  let main_v7 : IVec S_ 1 := (fun x v => Host.reduce IntOp.andi x v reducesTo_S640x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S50000x640 : Shape := ⟨2, ![50000, 640]⟩
abbrev S200000x2 : Shape := ⟨2, ![200000, 2]⟩
abbrev S640x64 : Shape := ⟨2, ![640, 64]⟩
abbrev S64 : Shape := ⟨1, ![64]⟩
abbrev S64x64 : Shape := ⟨2, ![64, 64]⟩
abbrev S64x640 : Shape := ⟨2, ![64, 640]⟩
abbrev S640 : Shape := ⟨1, ![640]⟩
abbrev S200000x1 : Shape := ⟨2, ![200000, 1]⟩
abbrev S200000 : Shape := ⟨1, ![200000]⟩
abbrev S50000 : Shape := ⟨1, ![50000]⟩
abbrev S250000 : Shape := ⟨1, ![250000]⟩
abbrev S_ : Shape := ⟨0, ![]⟩
abbrev S250000x1 : Shape := ⟨2, ![250000, 1]⟩
abbrev S1x64 : Shape := ⟨2, ![1, 64]⟩
abbrev S1x640 : Shape := ⟨2, ![1, 640]⟩
abbrev S50176x640 : Shape := ⟨2, ![50176, 640]⟩
abbrev S50176x64 : Shape := ⟨2, ![50176, 64]⟩
abbrev S7168x640 : Shape := ⟨2, ![7168, 640]⟩
abbrev S7168x64 : Shape := ⟨2, ![7168, 64]⟩
abbrev S250000x64 : Shape := ⟨2, ![250000, 64]⟩
abbrev S50000x64 : Shape := ⟨2, ![50000, 64]⟩
abbrev S1792x64 : Shape := ⟨2, ![1792, 64]⟩
abbrev S1792x640 : Shape := ⟨2, ![1792, 640]⟩

abbrev nBuf : Space → Nat
  | .hbm => 130
  | .vmem => 18
  | .smem => 0
  | _ => 0

abbrev hbmTy0_0 (i : Nat) : BufTy := match i % 128 with
  | 0 => ⟨S50000x640, .f32⟩
  | 1 => ⟨S200000x2, .i32⟩
  | 2 => ⟨S640x64, .f32⟩
  | 3 => ⟨S64, .f32⟩
  | 4 => ⟨S64x64, .f32⟩
  | 5 => ⟨S64, .f32⟩
  | 6 => ⟨S64x640, .f32⟩
  | 7 => ⟨S640, .f32⟩
  | 8 => ⟨S200000x1, .i32⟩
  | 9 => ⟨S200000, .i32⟩
  | 10 => ⟨S200000x1, .i32⟩
  | 11 => ⟨S200000, .i32⟩
  | 12 => ⟨S50000, .i32⟩
  | 13 => ⟨S250000, .i32⟩
  | 14 => ⟨S250000, .i32⟩
  | 15 => ⟨S_, .f32⟩
  | 16 => ⟨S250000, .f32⟩
  | 17 => ⟨S_, .f32⟩
  | 18 => ⟨S50000, .f32⟩
  | 19 => ⟨S250000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S250000, .i32⟩
  | 31 => ⟨S250000, .i1⟩
  | 32 => ⟨S_, .i32⟩
  | 33 => ⟨S250000, .i32⟩
  | 34 => ⟨S250000, .i32⟩
  | 35 => ⟨S250000, .i32⟩
  | 36 => ⟨S250000x1, .i32⟩
  | 37 => ⟨S250000, .f32⟩
  | 38 => ⟨S_, .i32⟩
  | 39 => ⟨S250000, .i32⟩
  | 40 => ⟨S250000, .i1⟩
  | 41 => ⟨S_, .i32⟩
  | 42 => ⟨S250000, .i32⟩
  | 43 => ⟨S250000, .i32⟩
  | 44 => ⟨S250000, .i32⟩
  | 45 => ⟨S250000x1, .i32⟩
  | 46 => ⟨S250000, .f32⟩
  | 47 => ⟨S250000, .f32⟩
  | 48 => ⟨S250000x1, .f32⟩
  | 49 => ⟨S640x64, .bf16⟩
  | 50 => ⟨S64x64, .bf16⟩
  | 51 => ⟨S64x640, .bf16⟩
  | 52 => ⟨S_, .f32⟩
  | 53 => ⟨S1x64, .f32⟩
  | 54 => ⟨S1x640, .f32⟩
  | 55 => ⟨S_, .i32⟩
  | 56 => ⟨S_, .f32⟩
  | 57 => ⟨S50176x640, .f32⟩
  | 58 => ⟨S50176x640, .bf16⟩
  | 59 => ⟨S50176x64, .bf16⟩
  | 60 => ⟨S_, .i32⟩
  | 61 => ⟨S250000, .i32⟩
  | 62 => ⟨S250000, .i1⟩
  | 63 => ⟨S_, .i32⟩
  | 64 => ⟨S250000, .i32⟩
  | 65 => ⟨S250000, .i32⟩
  | 66 => ⟨S250000, .i32⟩
  | 67 => ⟨S250000x1, .i32⟩
  | 68 => ⟨S250000x64, .bf16⟩
  | 69 => ⟨S250000x64, .f32⟩
  | 70 => ⟨S250000x64, .f32⟩
  | 71 => ⟨S250000x64, .f32⟩
  | 72 => ⟨S_, .f32⟩
  | 73 => ⟨S50000x64, .f32⟩
  | 74 => ⟨S250000x1, .i32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S_, .i32⟩
  | 83 => ⟨S_, .f32⟩
  | 84 => ⟨S50176x64, .f32⟩
  | 85 => ⟨S50176x64, .bf16⟩
  | 86 => ⟨S50176x64, .bf16⟩
  | 87 => ⟨S_, .i32⟩
  | 88 => ⟨S250000, .i32⟩
  | 89 => ⟨S250000, .i1⟩
  | 90 => ⟨S_, .i32⟩
  | 91 => ⟨S250000, .i32⟩
  | 92 => ⟨S250000, .i32⟩
  | 93 => ⟨S250000, .i32⟩
  | 94 => ⟨S250000x1, .i32⟩
  | 95 => ⟨S250000x64, .bf16⟩
  | 96 => ⟨S250000x64, .f32⟩
  | 97 => ⟨S250000x64, .f32⟩
  | 98 => ⟨S250000x64, .f32⟩
  | 99 => ⟨S_, .f32⟩
  | 100 => ⟨S50000x64, .f32⟩
  | 101 => ⟨S250000x1, .i32⟩
  | 102 => ⟨S50000x64, .f32⟩
  | 103 => ⟨S1x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S_, .i32⟩
  | 110 => ⟨S250000, .i32⟩
  | 111 => ⟨S250000, .i1⟩
  | 112 => ⟨S_, .i32⟩
  | 113 => ⟨S250000, .i32⟩
  | 114 => ⟨S250000, .i32⟩
  | 115 => ⟨S250000, .i32⟩
  | 116 => ⟨S250000x1, .i32⟩
  | 117 => ⟨S250000x64, .f32⟩
  | 118 => ⟨S250000x64, .f32⟩
  | 119 => ⟨S250000x64, .f32⟩
  | 120 => ⟨S_, .f32⟩
  | 121 => ⟨S50000x64, .f32⟩
  | 122 => ⟨S250000x1, .i32⟩
  | 123 => ⟨S50000x64, .f32⟩
  | 124 => ⟨S_, .i32⟩
  | 125 => ⟨S_, .f32⟩
  | 126 => ⟨S50176x64, .f32⟩
  | 127 => ⟨S50176x64, .bf16⟩
  | _ => ⟨S50000x640, .f32⟩

abbrev hbmTy0_1 (i : Nat) : BufTy := match i % 128 with
  | 0 => ⟨S50176x640, .f32⟩
  | 1 => ⟨S50000x640, .f32⟩
  | _ => ⟨S50000x640, .f32⟩

abbrev hbmTy (i : Nat) : BufTy := match i / 128 with
  | 0 => hbmTy0_0 i
  | 1 => hbmTy0_1 i
  | _ => ⟨S50000x640, .f32⟩

abbrev bufTy : (tb : Table) → Fin (tcTables nBuf tb) → BufTy
  | .hbm, ⟨i, _⟩ => hbmTy i
  | .local _ .vmem, ⟨0, _⟩ => ⟨S7168x640, .bf16⟩
  | .local _ .vmem, ⟨1, _⟩ => ⟨S7168x640, .bf16⟩
  | .local _ .vmem, ⟨2, _⟩ => ⟨S640x64, .bf16⟩
  | .local _ .vmem, ⟨3, _⟩ => ⟨S1x64, .f32⟩
  | .local _ .vmem, ⟨4, _⟩ => ⟨S7168x64, .bf16⟩
  | .local _ .vmem, ⟨5, _⟩ => ⟨S7168x64, .bf16⟩
  | .local _ .vmem, ⟨6, _⟩ => ⟨S7168x64, .bf16⟩
  | .local _ .vmem, ⟨7, _⟩ => ⟨S7168x64, .bf16⟩
  | .local _ .vmem, ⟨8, _⟩ => ⟨S64x64, .bf16⟩
  | .local _ .vmem, ⟨9, _⟩ => ⟨S1x64, .f32⟩
  | .local _ .vmem, ⟨10, _⟩ => ⟨S7168x64, .bf16⟩
  | .local _ .vmem, ⟨11, _⟩ => ⟨S7168x64, .bf16⟩
  | .local _ .vmem, ⟨12, _⟩ => ⟨S1792x64, .bf16⟩
  | .local _ .vmem, ⟨13, _⟩ => ⟨S1792x64, .bf16⟩
  | .local _ .vmem, ⟨14, _⟩ => ⟨S64x640, .bf16⟩
  | .local _ .vmem, ⟨15, _⟩ => ⟨S1x640, .f32⟩
  | .local _ .vmem, ⟨16, _⟩ => ⟨S1792x640, .f32⟩
  | .local _ .vmem, ⟨17, _⟩ => ⟨S1792x640, .f32⟩
  | _, _ => ⟨S50000x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call2_cst : Ref sig .tc := ⟨.hbm, 79, rfl⟩
abbrev main_call2_v0 : Ref sig .tc := ⟨.hbm, 80, rfl⟩
abbrev main_v55 : Ref sig .tc := ⟨.hbm, 81, rfl⟩
abbrev main_c_11 : Ref sig .tc := ⟨.hbm, 82, rfl⟩
abbrev main_call3_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call4_cst : Ref sig .tc := ⟨.hbm, 106, rfl⟩
abbrev main_call4_v0 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_call5_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7168x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S7168x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S7168x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![28], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1792x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x640 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1792x640 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  concatenates_S200000_S50000_S250000_d0 : Shape.Concatenates [S200000, S50000] S250000 0
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bitsLt_bf16_f32 : FTy.bits .bf16 < FTy.bits .f32
  bcast_S_S1x64 : S_.BroadcastsInDim S1x64 (![] : Fin 0 → Fin S1x64.rank)
  shapeCasts_S640_S1x640 : S640.ShapeCasts S1x640
  pads_S50000x640_S50176x640_01760_000 : S50000x640.Pads (![0, 0] : Fin 2 → Nat) ![176, 0] ![0, 0] S50176x640
  h_S_ : 0 < S_.numel
  inb_S7168x640_S7168x640_0_0 : ∀ a, (![0, 0] : Fin 2 → Nat) a + S7168x640.size a ≤ S7168x640.size a
  h_S7168x640 : 0 < S7168x640.numel
  shapeCasts_S7168x640_S7168x640 : S7168x640.ShapeCasts S7168x640
  inb_S640x64_S640x64_0_0 : ∀ a, (![0, 0] : Fin 2 → Nat) a + S640x64.size a ≤ S640x64.size a
  h_S640x64 : 0 < S640x64.numel
  shapeCasts_S640x64_S640x64 : S640x64.ShapeCasts S640x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S7168x64 : S1x64.Broadcasts S7168x64
  inb_S7168x64_S7168x64_0_0 : ∀ a, (![0, 0] : Fin 2 → Nat) a + S7168x64.size a ≤ S7168x64.size a
  h_S7168x64 : 0 < S7168x64.numel
  packedbf16_S7168x64_S7168x64_0_0 : (Rect.unit (s := S7168x64) ![0, 0] S7168x64.size inb_S7168x64_S7168x64_0_0).PackedRows (EltTy.packing .bf16)
  bcast_S250000x1_S250000x64_0_1 : S250000x1.BroadcastsInDim S250000x64 (![0, 1] : Fin 2 → Fin S250000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  pads_S50000x64_S50176x64_01760_000 : S50000x64.Pads (![0, 0] : Fin 2 → Nat) ![176, 0] ![0, 0] S50176x64
  shapeCasts_S7168x64_S7168x64 : S7168x64.ShapeCasts S7168x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1792x64_S1792x64_0_0 : ∀ a, (![0, 0] : Fin 2 → Nat) a + S1792x64.size a ≤ S1792x64.size a
  h_S1792x64 : 0 < S1792x64.numel
  shapeCasts_S1792x64_S1792x64 : S1792x64.ShapeCasts S1792x64
  inb_S64x640_S64x640_0_0 : ∀ a, (![0, 0] : Fin 2 → Nat) a + S64x640.size a ≤ S64x640.size a
  h_S64x640 : 0 < S64x640.numel
  shapeCasts_S64x640_S64x640 : S64x640.ShapeCasts S64x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S1792x640 : S1x640.Broadcasts S1792x640
  inb_S1792x640_S1792x640_0_0 : ∀ a, (![0, 0] : Fin 2 → Nat) a + S1792x640.size a ≤ S1792x640.size a
  h_S1792x640 : 0 < S1792x640.numel
  slices_S50176x640_S50000x640_0_0 : S50176x640.Slices ![0, 0] S50000x640
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S7168x640_S640x64_S7168x64_1_0_0_1_n_n_wf : DotDims.WF S7168x640 S640x64 S7168x64 [1] [0] [0] [1] [] []
  gather_S50176x64_S250000x1_S250000x64_1_0_n_n_0_1_164_wf : GatherDims.WF S50176x64 S250000x1 S250000x64 [1] [0] [] [0] [] 1 ![1, 64]
  scatter_S50000x64_S250000x1_S250000x64_1_0_0_1_wf : ScatterDims.WF S50000x64 S250000x1 S250000x64 [1] [0] [0] 1
  dot_S7168x64_S64x64_S7168x64_1_0_0_1_n_n_wf : DotDims.WF S7168x64 S64x64 S7168x64 [1] [0] [0] [1] [] []
  gather_S50000x64_S250000x1_S250000x64_1_0_n_n_0_1_164_wf : GatherDims.WF S50000x64 S250000x1 S250000x64 [1] [0] [] [0] [] 1 ![1, 64]
  dot_S1792x64_S64x640_S1792x640_1_0_0_1_n_n_wf : DotDims.WF S1792x64 S64x640 S1792x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7168x640.size a ≤ S50176x640.size a
  hwx0_0 : ∀ i : grid0.Coords, EltTy.bits .bf16 = 32 ∨ (Rect.block (s := S50176x640) S7168x640.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x64.size a ≤ S640x64.size a
  hwx0_1 : ∀ i : grid0.Coords, EltTy.bits .bf16 = 32 ∨ (Rect.block (s := S640x64) S640x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7168x64.size a ≤ S50176x64.size a
  hwx0_3 : ∀ i : grid0.Coords, EltTy.bits .bf16 = 32 ∨ (Rect.block (s := S50176x64) S7168x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S7168x64.size a ≤ S50176x64.size a
  hwx1_0 : ∀ i : grid1.Coords, EltTy.bits .bf16 = 32 ∨ (Rect.block (s := S50176x64) S7168x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S7168x64.size a ≤ S50176x64.size a
  hwx1_3 : ∀ i : grid1.Coords, EltTy.bits .bf16 = 32 ∨ (Rect.block (s := S50176x64) S7168x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1792x64.size a ≤ S50176x64.size a
  hwx2_0 : ∀ i : grid2.Coords, EltTy.bits .bf16 = 32 ∨ (Rect.block (s := S50176x64) S1792x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x640.size a ≤ S64x640.size a
  hwx2_1 : ∀ i : grid2.Coords, EltTy.bits .bf16 = 32 ∨ (Rect.block (s := S64x640) S64x640.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x640.size a ≤ S1x640.size a
  hwx2_2 : ∀ i : grid2.Coords, EltTy.bits .f32 = 32 ∨ (Rect.block (s := S1x640) S1x640.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1792x640.size a ≤ S50176x640.size a
  hwx2_3 : ∀ i : grid2.Coords, EltTy.bits .f32 = 32 ∨ (Rect.block (s := S50176x640) S1792x640.size (cc2_transform_3 i) (hinb2_3 i)).WholeWords (EltTy.packing .f32)

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S7168x640_S640x64_S7168x64_1_0_0_1_n_n : DotDims S7168x640 S640x64 S7168x64 where
  lhsContracting := [1]
  rhsContracting := [0]
  lhsNonContracting := [0]
  rhsNonContracting := [1]
  lhsBatch := []
  rhsBatch := []
  wf := dot_S7168x640_S640x64_S7168x64_1_0_0_1_n_n_wf
def gather_S50176x64_S250000x1_S250000x64_1_0_n_n_0_1_164 : GatherDims S50176x64 S250000x1 S250000x64 where
  offsetDims := [1]
  collapsedSliceDims := [0]
  operandBatchingDims := []
  startIndicesBatchingDims := []
  startIndexMap := [0]
  indexVectorDim := 1
  sliceSizes := ![1, 64]
  wf := gather_S50176x64_S250000x1_S250000x64_1_0_n_n_0_1_164_wf
def scatter_S50000x64_S250000x1_S250000x64_1_0_0_1 : ScatterDims S50000x64 S250000x1 S250000x64 where
  updateWindowDims := [1]
  insertedWindowDims := [0]
  scatterDimsToOperandDims := [0]
  indexVectorDim := 1
  wf := scatter_S50000x64_S250000x1_S250000x64_1_0_0_1_wf
def dot_S7168x64_S64x64_S7168x64_1_0_0_1_n_n : DotDims S7168x64 S64x64 S7168x64 where
  lhsContracting := [1]
  rhsContracting := [0]
  lhsNonContracting := [0]
  rhsNonContracting := [1]
  lhsBatch := []
  rhsBatch := []
  wf := dot_S7168x64_S64x64_S7168x64_1_0_0_1_n_n_wf
def gather_S50000x64_S250000x1_S250000x64_1_0_n_n_0_1_164 : GatherDims S50000x64 S250000x1 S250000x64 where
  offsetDims := [1]
  collapsedSliceDims := [0]
  operandBatchingDims := []
  startIndicesBatchingDims := []
  startIndexMap := [0]
  indexVectorDim := 1
  sliceSizes := ![1, 64]
  wf := gather_S50000x64_S250000x1_S250000x64_1_0_n_n_0_1_164_wf
def dot_S1792x64_S64x640_S1792x640_1_0_0_1_n_n : DotDims S1792x64 S64x640 S1792x640 where
  lhsContracting := [1]
  rhsContracting := [0]
  lhsNonContracting := [0]
  rhsNonContracting := [1]
  lhsBatch := []
  rhsBatch := []
  wf := dot_S1792x64_S64x640_S1792x640_1_0_0_1_n_n_wf

abbrev win0_0 : Pipeline.Window sig grid0 :=
  Pipeline.Window.ofSpec (Memref.whole main_v37) S7168x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S640x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S7168x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S7168x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S7168x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v89) S1792x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S64x640.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x640.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1792x640.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x640 : Shape := ⟨2, ![50000, 640]⟩
abbrev S200000x2 : Shape := ⟨2, ![200000, 2]⟩
abbrev S640x64 : Shape := ⟨2, ![640, 64]⟩
abbrev S64 : Shape := ⟨1, ![64]⟩
abbrev S64x64 : Shape := ⟨2, ![64, 64]⟩
abbrev S64x640 : Shape := ⟨2, ![64, 640]⟩
abbrev S640 : Shape := ⟨1, ![640]⟩
abbrev S200000x1 : Shape := ⟨2, ![200000, 1]⟩
abbrev S200000 : Shape := ⟨1, ![200000]⟩
abbrev S50000 : Shape := ⟨1, ![50000]⟩
abbrev S250000 : Shape := ⟨1, ![250000]⟩
abbrev S_ : Shape := ⟨0, ![]⟩
abbrev S250000x1 : Shape := ⟨2, ![250000, 1]⟩
abbrev S50000x64 : Shape := ⟨2, ![50000, 64]⟩
abbrev S250000x64 : Shape := ⟨2, ![250000, 64]⟩
abbrev S1x64 : Shape := ⟨2, ![1, 64]⟩
abbrev S250000x640 : Shape := ⟨2, ![250000, 640]⟩
abbrev S1x640 : Shape := ⟨2, ![1, 640]⟩

abbrev nBuf : Space → Nat
  | .hbm => 114
  | .vmem => 0
  | .smem => 0
  | _ => 0

abbrev bufTy : (tb : Table) → Fin (tcTables nBuf tb) → BufTy
  | .hbm, ⟨0, _⟩ => ⟨S50000x640, .f32⟩
  | .hbm, ⟨1, _⟩ => ⟨S200000x2, .i32⟩
  | .hbm, ⟨2, _⟩ => ⟨S640x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x640, .f32⟩
  | .hbm, ⟨7, _⟩ => ⟨S640, .f32⟩
  | .hbm, ⟨8, _⟩ => ⟨S200000x1, .i32⟩
  | .hbm, ⟨9, _⟩ => ⟨S200000, .i32⟩
  | .hbm, ⟨10, _⟩ => ⟨S200000x1, .i32⟩
  | .hbm, ⟨11, _⟩ => ⟨S200000, .i32⟩
  | .hbm, ⟨12, _⟩ => ⟨S50000, .i32⟩
  | .hbm, ⟨13, _⟩ => ⟨S250000, .i32⟩
  | .hbm, ⟨14, _⟩ => ⟨S250000, .i32⟩
  | .hbm, ⟨15, _⟩ => ⟨S_, .f32⟩
  | .hbm, ⟨16, _⟩ => ⟨S250000, .f32⟩
  | .hbm, ⟨17, _⟩ => ⟨S_, .f32⟩
  | .hbm, ⟨18, _⟩ => ⟨S50000, .f32⟩
  | .hbm, ⟨19, _⟩ => ⟨S250000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S250000, .i32⟩
  | .hbm, ⟨31, _⟩ => ⟨S250000, .i1⟩
  | .hbm, ⟨32, _⟩ => ⟨S_, .i32⟩
  | .hbm, ⟨33, _⟩ => ⟨S250000, .i32⟩
  | .hbm, ⟨34, _⟩ => ⟨S250000, .i32⟩
  | .hbm, ⟨35, _⟩ => ⟨S250000, .i32⟩
  | .hbm, ⟨36, _⟩ => ⟨S250000x1, .i32⟩
  | .hbm, ⟨37, _⟩ => ⟨S250000, .f32⟩
  | .hbm, ⟨38, _⟩ => ⟨S_, .i32⟩
  | .hbm, ⟨39, _⟩ => ⟨S250000, .i32⟩
  | .hbm, ⟨40, _⟩ => ⟨S250000, .i1⟩
  | .hbm, ⟨41, _⟩ => ⟨S_, .i32⟩
  | .hbm, ⟨42, _⟩ => ⟨S250000, .i32⟩
  | .hbm, ⟨43, _⟩ => ⟨S250000, .i32⟩
  | .hbm, ⟨44, _⟩ => ⟨S250000, .i32⟩
  | .hbm, ⟨45, _⟩ => ⟨S250000x1, .i32⟩
  | .hbm, ⟨46, _⟩ => ⟨S250000, .f32⟩
  | .hbm, ⟨47, _⟩ => ⟨S250000, .f32⟩
  | .hbm, ⟨48, _⟩ => ⟨S50000x64, .f32⟩
  | .hbm, ⟨49, _⟩ => ⟨S_, .i32⟩
  | .hbm, ⟨50, _⟩ => ⟨S250000, .i32⟩
  | .hbm, ⟨51, _⟩ => ⟨S250000, .i1⟩
  | .hbm, ⟨52, _⟩ => ⟨S_, .i32⟩
  | .hbm, ⟨53, _⟩ => ⟨S250000, .i32⟩
  | .hbm, ⟨54, _⟩ => ⟨S250000, .i32⟩
  | .hbm, ⟨55, _⟩ => ⟨S250000, .i32⟩
  | .hbm, ⟨56, _⟩ => ⟨S250000x1, .i32⟩
  | .hbm, ⟨57, _⟩ => ⟨S250000x64, .f32⟩
  | .hbm, ⟨58, _⟩ => ⟨S250000x1, .f32⟩
  | .hbm, ⟨59, _⟩ => ⟨S250000x64, .f32⟩
  | .hbm, ⟨60, _⟩ => ⟨S250000x64, .f32⟩
  | .hbm, ⟨61, _⟩ => ⟨S_, .f32⟩
  | .hbm, ⟨62, _⟩ => ⟨S50000x64, .f32⟩
  | .hbm, ⟨63, _⟩ => ⟨S250000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S250000, .i32⟩
  | .hbm, ⟨74, _⟩ => ⟨S250000, .i1⟩
  | .hbm, ⟨75, _⟩ => ⟨S_, .i32⟩
  | .hbm, ⟨76, _⟩ => ⟨S250000, .i32⟩
  | .hbm, ⟨77, _⟩ => ⟨S250000, .i32⟩
  | .hbm, ⟨78, _⟩ => ⟨S250000, .i32⟩
  | .hbm, ⟨79, _⟩ => ⟨S250000x1, .i32⟩
  | .hbm, ⟨80, _⟩ => ⟨S250000x64, .f32⟩
  | .hbm, ⟨81, _⟩ => ⟨S250000x1, .f32⟩
  | .hbm, ⟨82, _⟩ => ⟨S250000x64, .f32⟩
  | .hbm, ⟨83, _⟩ => ⟨S250000x64, .f32⟩
  | .hbm, ⟨84, _⟩ => ⟨S_, .f32⟩
  | .hbm, ⟨85, _⟩ => ⟨S50000x64, .f32⟩
  | .hbm, ⟨86, _⟩ => ⟨S250000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S50000x640, .f32⟩
  | .hbm, ⟨95, _⟩ => ⟨S_, .i32⟩
  | .hbm, ⟨96, _⟩ => ⟨S250000, .i32⟩
  | .hbm, ⟨97, _⟩ => ⟨S250000, .i1⟩
  | .hbm, ⟨98, _⟩ => ⟨S_, .i32⟩
  | .hbm, ⟨99, _⟩ => ⟨S250000, .i32⟩
  | .hbm, ⟨100, _⟩ => ⟨S250000, .i32⟩
  | .hbm, ⟨101, _⟩ => ⟨S250000, .i32⟩
  | .hbm, ⟨102, _⟩ => ⟨S250000x1, .i32⟩
  | .hbm, ⟨103, _⟩ => ⟨S250000x640, .f32⟩
  | .hbm, ⟨104, _⟩ => ⟨S250000x1, .f32⟩
  | .hbm, ⟨105, _⟩ => ⟨S250000x640, .f32⟩
  | .hbm, ⟨106, _⟩ => ⟨S250000x640, .f32⟩
  | .hbm, ⟨107, _⟩ => ⟨S_, .f32⟩
  | .hbm, ⟨108, _⟩ => ⟨S50000x640, .f32⟩
  | .hbm, ⟨109, _⟩ => ⟨S250000x1, .i32⟩
  | .hbm, ⟨110, _⟩ => ⟨S50000x640, .f32⟩
  | .hbm, ⟨111, _⟩ => ⟨S1x640, .f32⟩
  | .hbm, ⟨112, _⟩ => ⟨S50000x640, .f32⟩
  | .hbm, ⟨113, _⟩ => ⟨S50000x640, .f32⟩
  | _, _ => ⟨S50000x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  concatenates_S200000_S50000_S250000_d0 : Shape.Concatenates [S200000, S50000] S250000 0
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S250000x1_S250000x64_0_1 : S250000x1.BroadcastsInDim S250000x64 (![0, 1] : Fin 2 → Fin S250000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S250000x1_S250000x640_0_1 : S250000x1.BroadcastsInDim S250000x640 (![0, 1] : Fin 2 → Fin S250000x640.rank)
  bcast_S_S50000x640 : S_.BroadcastsInDim S50000x640 (![] : Fin 0 → Fin S50000x640.rank)
  bcast_S640_S1x640_1 : S640.BroadcastsInDim S1x640 (![1] : Fin 1 → Fin S1x640.rank)
  bcast_S1x640_S50000x640_0_1 : S1x640.BroadcastsInDim S50000x640 (![0, 1] : Fin 2 → Fin S50000x640.rank)
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S50000x640_S640x64_S50000x64_1_0_0_1_n_n_wf : DotDims.WF S50000x640 S640x64 S50000x64 [1] [0] [0] [1] [] []
  gather_S50000x64_S250000x1_S250000x64_1_0_n_n_0_1_164_wf : GatherDims.WF S50000x64 S250000x1 S250000x64 [1] [0] [] [0] [] 1 ![1, 64]
  scatter_S50000x64_S250000x1_S250000x64_1_0_0_1_wf : ScatterDims.WF S50000x64 S250000x1 S250000x64 [1] [0] [0] 1
  dot_S50000x64_S64x64_S50000x64_1_0_0_1_n_n_wf : DotDims.WF S50000x64 S64x64 S50000x64 [1] [0] [0] [1] [] []
  dot_S50000x64_S64x640_S50000x640_1_0_0_1_n_n_wf : DotDims.WF S50000x64 S64x640 S50000x640 [1] [0] [0] [1] [] []
  gather_S50000x640_S250000x1_S250000x640_1_0_n_n_0_1_1640_wf : GatherDims.WF S50000x640 S250000x1 S250000x640 [1] [0] [] [0] [] 1 ![1, 640]
  scatter_S50000x640_S250000x1_S250000x640_1_0_0_1_wf : ScatterDims.WF S50000x640 S250000x1 S250000x640 [1] [0] [0] 1

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S50000x640_S640x64_S50000x64_1_0_0_1_n_n : DotDims S50000x640 S640x64 S50000x64 where
  lhsContracting := [1]
  rhsContracting := [0]
  lhsNonContracting := [0]
  rhsNonContracting := [1]
  lhsBatch := []
  rhsBatch := []
  wf := dot_S50000x640_S640x64_S50000x64_1_0_0_1_n_n_wf
def gather_S50000x64_S250000x1_S250000x64_1_0_n_n_0_1_164 : GatherDims S50000x64 S250000x1 S250000x64 where
  offsetDims := [1]
  collapsedSliceDims := [0]
  operandBatchingDims := []
  startIndicesBatchingDims := []
  startIndexMap := [0]
  indexVectorDim := 1
  sliceSizes := ![1, 64]
  wf := gather_S50000x64_S250000x1_S250000x64_1_0_n_n_0_1_164_wf
def scatter_S50000x64_S250000x1_S250000x64_1_0_0_1 : ScatterDims S50000x64 S250000x1 S250000x64 where
  updateWindowDims := [1]
  insertedWindowDims := [0]
  scatterDimsToOperandDims := [0]
  indexVectorDim := 1
  wf := scatter_S50000x64_S250000x1_S250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x640_S50000x640_1_0_0_1_n_n : DotDims S50000x64 S64x640 S50000x640 where
  lhsContracting := [1]
  rhsContracting := [0]
  lhsNonContracting := [0]
  rhsNonContracting := [1]
  lhsBatch := []
  rhsBatch := []
  wf := dot_S50000x64_S64x640_S50000x640_1_0_0_1_n_n_wf
def gather_S50000x640_S250000x1_S250000x640_1_0_n_n_0_1_1640 : GatherDims S50000x640 S250000x1 S250000x640 where
  offsetDims := [1]
  collapsedSliceDims := [0]
  operandBatchingDims := []
  startIndicesBatchingDims := []
  startIndexMap := [0]
  indexVectorDim := 1
  sliceSizes := ![1, 640]
  wf := gather_S50000x640_S250000x1_S250000x640_1_0_n_n_0_1_1640_wf
def scatter_S50000x640_S250000x1_S250000x640_1_0_0_1 : ScatterDims S50000x640 S250000x1 S250000x640 where
  updateWindowDims := [1]
  insertedWindowDims := [0]
  scatterDimsToOperandDims := [0]
  indexVectorDim := 1
  wf := scatter_S50000x640_S250000x1_S250000x640_1_0_0_1_wf

class Facts : Prop extends Facts₀ where

variable [Facts]
-- ==== Proof.Spec.lean ====
/-
  Three graph-convolution layers over a fixed edge list, as functions of matrices with `Fin`-indexed entries in the
  extended reals, and the one algebraic law the two programs differ by.

  An edge list gives every edge `e` a source node `s e`, a destination node `d e` and a weight `w e`. One propagation
  sends row `s e` of a node matrix, scaled by `w e`, to row `d e`, summed over the edges: `prop`. A layer multiplies the
  node matrix by a weight matrix, propagates, and adds a bias: `conv`. The reference applies the last layer in that
  order; the kernel propagates first and multiplies afterwards: `kerOut` against `refOut`. Propagation and a matrix
  product on the other side commute when every entry is a real number (a finite sum of products of reals may be
  regrouped; on the extended reals it may not), and they do not in general at an infinite entry.
-/
import Idealize.ShloMosaic.PureOps.Ideal
import Idealize.ShloMosaic.Lib.ValueIdx
import Mathlib.Data.EReal.Operations
import Mathlib.Algebra.BigOperators.Group.Finset.Basic
import Mathlib.Algebra.BigOperators.Ring.Finset

noncomputable section

open scoped BigOperators

namespace Cert.Gcn

open Idealize.ShloMosaic Idealize.ShloMosaic.ValueIdx

/-- Every entry of a family of extended reals is a real number. -/
def IsReal {ι : Type} (X : ι → EReal) : Prop := ∀ i, ∃ r : ℝ, X i = (r : EReal)
/-- Every entry of a matrix of extended reals is a real number. -/
def IsReal2 {ι κ : Type} (X : ι → κ → EReal) : Prop := ∀ i k, ∃ r : ℝ, X i k = (r : EReal)

/-- Every entry of the edge array is a node number: at least 0 and below 50000, read as a signed word. -/
def InRange (x1 : (⟨2, ![200000, 2]⟩ : Shape).Idx → BitVec 32) : Prop := ∀ j, 0 ≤ (x1 j).toInt ∧ (x1 j).toInt < 50000

/-- A rank-2 array as a matrix with `Fin`-indexed rows and columns. -/
abbrev mat {A B : ℕ} (X : (⟨2, ![A, B]⟩ : Shape).Idx → EReal) : Fin A → Fin B → EReal := fun i k => X (ix2 i k)
/-- A rank-1 array as a `Fin`-indexed vector. -/
abbrev vec {A : ℕ} (v : (⟨1, ![A]⟩ : Shape).Idx → EReal) : Fin A → EReal := fun i => v (ix1 i)

/-- The matrix product. -/
def mm {A K C : ℕ} (H : Fin A → Fin K → EReal) (W : Fin K → Fin C → EReal) : Fin A → Fin C → EReal :=
  fun i f => ∑ k : Fin K, H i k * W k f

/-- One propagation over the edge list: node `i` receives, from every edge into it, its source's row times the edge's weight. -/
def prop {C : ℕ} (s d : Fin 250000 → Fin 50000) (w : Fin 250000 → EReal) (D : Fin 50000 → Fin C → EReal) :
    Fin 50000 → Fin C → EReal :=
  fun i f => ∑ e : Fin 250000, if d e = i then D (s e) f * w e else 0

/-- One layer: transform, propagate, add the bias. -/
def conv {K C : ℕ} (s d : Fin 250000 → Fin 50000) (w : Fin 250000 → EReal) (H : Fin 50000 → Fin K → EReal)
    (W : Fin K → Fin C → EReal) (b : Fin C → EReal) : Fin 50000 → Fin C → EReal :=
  fun i f => prop s d w (mm H W) i f + b f

/-- The positive part, entry by entry. -/
def relu {A C : ℕ} (X : Fin A → Fin C → EReal) : Fin A → Fin C → EReal := fun i f => max (X i f) 0

/-- The node matrix after the first two layers. -/
def hidden (s d : Fin 250000 → Fin 50000) (w : Fin 250000 → EReal) (x : Fin 50000 → Fin 640 → EReal)
    (W1 : Fin 640 → Fin 64 → EReal) (b1 : Fin 64 → EReal) (W2 : Fin 64 → Fin 64 → EReal) (b2 : Fin 64 → EReal) :
    Fin 50000 → Fin 64 → EReal :=
  relu (conv s d w (relu (conv s d w x W1 b1)) W2 b2)

/-- The reference: the third layer transforms, then propagates. -/
def refOut (s d : Fin 250000 → Fin 50000) (w : Fin 250000 → EReal) (x : Fin 50000 → Fin 640 → EReal)
    (W1 : Fin 640 → Fin 64 → EReal) (b1 : Fin 64 → EReal) (W2 : Fin 64 → Fin 64 → EReal) (b2 : Fin 64 → EReal)
    (W3 : Fin 64 → Fin 640 → EReal) (b3 : Fin 640 → EReal) : Fin 50000 → Fin 640 → EReal :=
  conv s d w (hidden s d w x W1 b1 W2 b2) W3 b3

/-- The kernel: the third layer propagates the narrow matrix, then transforms. -/
def kerOut (s d : Fin 250000 → Fin 50000) (w : Fin 250000 → EReal) (x : Fin 50000 → Fin 640 → EReal)
    (W1 : Fin 640 → Fin 64 → EReal) (b1 : Fin 64 → EReal) (W2 : Fin 64 → Fin 64 → EReal) (b2 : Fin 64 → EReal)
    (W3 : Fin 64 → Fin 640 → EReal) (b3 : Fin 640 → EReal) : Fin 50000 → Fin 640 → EReal :=
  fun i f => mm (prop s d w (hidden s d w x W1 b1 W2 b2)) W3 i f + b3 f

/-- The coercion from the reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp only [Finset.sum_empty, EReal.coe_zero]
  | insert a s ha ih => rw [Finset.sum_insert ha, Finset.sum_insert ha, EReal.coe_add, ih]

/-- The coercion from the reals commutes with a choice between a value and zero. -/
private theorem coe_ite (p : Prop) [Decidable p] (a : ℝ) :
    (if p then ((a : ℝ) : EReal) else 0) = ((if p then a else 0 : ℝ) : EReal) := by
  split_ifs
  · rfl
  · exact EReal.coe_zero.symm

/-- Propagating and then multiplying on the right is multiplying and then propagating, over real entries. -/
theorem mm_prop_eq_prop_mm {K C : ℕ} (s d : Fin 250000 → Fin 50000) (w : Fin 250000 → EReal) (H : Fin 50000 → Fin K → EReal)
    (W : Fin K → Fin C → EReal) (hw : IsReal w) (hH : IsReal2 H) (hW : IsReal2 W) (i : Fin 50000) (f : Fin C) :
    mm (prop s d w H) W i f = prop s d w (mm H W) i f := by
  choose wr hwr using hw
  choose Hr hHr using hH
  choose Wr hWr using hW
  unfold mm prop
  simp only [hwr, hHr, hWr, ← EReal.coe_mul, coe_ite, ← coe_sum]
  rw [EReal.coe_eq_coe_iff]
  simp only [Finset.sum_mul]
  rw [Finset.sum_comm]
  refine Finset.sum_congr rfl fun e _ => ?_
  split_ifs
  · refine Finset.sum_congr rfl fun k _ => ?_
    ring
  · simp only [zero_mul, Finset.sum_const_zero]

/-- A product of real matrices is real. -/
private theorem isReal_mm {A K C : ℕ} {H : Fin A → Fin K → EReal} {W : Fin K → Fin C → EReal}
    (hH : IsReal2 H) (hW : IsReal2 W) : IsReal2 (mm H W) := by
  choose Hr hHr using hH
  choose Wr hWr using hW
  intro i f
  refine ⟨∑ k : Fin K, Hr i k * Wr k f, ?_⟩
  unfold mm
  simp only [hHr, hWr, ← EReal.coe_mul, ← coe_sum]

/-- Propagating a real matrix along real edge weights gives a real matrix. -/
private theorem isReal_prop {C : ℕ} (s d : Fin 250000 → Fin 50000) {w : Fin 250000 → EReal}
    {D : Fin 50000 → Fin C → EReal} (hw : IsReal w) (hD : IsReal2 D) : IsReal2 (prop s d w D) := by
  choose wr hwr using hw
  choose Dr hDr using hD
  intro i f
  refine ⟨∑ e : Fin 250000, if d e = i then Dr (s e) f * wr e else 0, ?_⟩
  unfold prop
  simp only [hwr, hDr, ← EReal.coe_mul, coe_ite, ← coe_sum]

/-- A layer with real graph weights, real input, real weights and a real bias has a real output. -/
private theorem isReal_conv {K C : ℕ} (s d : Fin 250000 → Fin 50000) {w : Fin 250000 → EReal}
    {H : Fin 50000 → Fin K → EReal} {W : Fin K → Fin C → EReal} {b : Fin C → EReal}
    (hw : IsReal w) (hH : IsReal2 H) (hW : IsReal2 W) (hb : IsReal b) : IsReal2 (conv s d w H W b) := by
  intro i f
  obtain ⟨r, hr⟩ := isReal_prop s d hw (isReal_mm hH hW) i f
  obtain ⟨c, hc⟩ := hb f
  refine ⟨r + c, ?_⟩
  unfold conv
  rw [hr, hc, EReal.coe_add]

/-- The positive part of a real matrix is real. -/
private theorem isReal_relu {A C : ℕ} {X : Fin A → Fin C → EReal} (hX : IsReal2 X) : IsReal2 (relu X) := by
  intro i f
  obtain ⟨r, hr⟩ := hX i f
  refine ⟨max r 0, ?_⟩
  unfold relu
  rw [hr]
  rcases le_total r 0 with h | h
  · rw [max_eq_right h, max_eq_right (EReal.coe_nonpos.mpr h), EReal.coe_zero]
  · rw [max_eq_left h, max_eq_left (EReal.coe_nonneg.mpr h)]

/-- The first two layers keep real entries real. -/
theorem hidden_real (s d : Fin 250000 → Fin 50000) (w : Fin 250000 → EReal) (x : Fin 50000 → Fin 640 → EReal)
    (W1 : Fin 640 → Fin 64 → EReal) (b1 : Fin 64 → EReal) (W2 : Fin 64 → Fin 64 → EReal) (b2 : Fin 64 → EReal)
    (hw : IsReal w) (hx : IsReal2 x) (hW1 : IsReal2 W1) (hb1 : IsReal b1) (hW2 : IsReal2 W2) (hb2 : IsReal b2) :
    IsReal2 (hidden s d w x W1 b1 W2 b2) := by
  unfold hidden
  exact isReal_relu (isReal_conv s d hw (isReal_relu (isReal_conv s d hw hx hW1 hb1)) hW2 hb2)

/-- The two orders of the third layer agree when the weights of the graph and of the layers, the features and the
    biases are real. -/
theorem kerOut_eq_refOut (s d : Fin 250000 → Fin 50000) (w : Fin 250000 → EReal) (x : Fin 50000 → Fin 640 → EReal)
    (W1 : Fin 640 → Fin 64 → EReal) (b1 : Fin 64 → EReal) (W2 : Fin 64 → Fin 64 → EReal) (b2 : Fin 64 → EReal)
    (W3 : Fin 64 → Fin 640 → EReal) (b3 : Fin 640 → EReal)
    (hw : IsReal w) (hx : IsReal2 x) (hW1 : IsReal2 W1) (hb1 : IsReal b1) (hW2 : IsReal2 W2) (hb2 : IsReal b2)
    (hW3 : IsReal2 W3) (i : Fin 50000) (f : Fin 640) :
    kerOut s d w x W1 b1 W2 b2 W3 b3 i f = refOut s d w x W1 b1 W2 b2 W3 b3 i f := by
  unfold kerOut refOut conv
  rw [mm_prop_eq_prop_mm s d w _ W3 hw (hidden_real s d w x W1 b1 W2 b2 hw hx hW1 hb1 hW2 hb2) hW3]

end Cert.Gcn

end
-- ==== Proof.PreFacts.lean ====
/-
  What the precondition says of the inputs: every entry of the edge array is a node number, and every entry of the
  seven float arrays is a real number.

  The printed precondition is a conjunction of eight reductions by `and` over whole arrays: for each float array, of
  `|x| < +inf` entry by entry, and for the edge array of `0 ≤ e` and `e < 50000` as signed words. It is all ones exactly
  when every one of those entry tests holds; an extended real whose absolute value is below `+inf` is a real number.
-/
import proofs.«402543_j10170482557309_3_alg».proof.Pre_finite_inputs
import proofs.«402543_j10170482557309_3_alg».proof.Proof.Gen.Pre_finite_inputs
import proofs.«402543_j10170482557309_3_alg».proof.Proof.Spec
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs

/-- The rank-0 shape has one index. -/
local instance : Subsingleton S_.Idx := ⟨fun a b => funext fun d => d.elim0⟩

/-- An extended real whose absolute value is below `+∞` is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The word `0x7F800000` is `+∞`. -/
private theorem inf_word : Ideal.ofBits .f32 0x7F800000#32 = (⊤ : EReal) := by
  simp [Ideal.ofBits, Ideal.ieee]

/-- One float array: the reduction by `and` of `|x| < +∞` over the whole array is one only if every entry is real. -/
private theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    Cert.Gcn.IsReal x := by
  intro i
  have hi := Host.reduce_andi_all _ _ hr hu _ e i
  have hi' : Ideal.cmp .olt (max (x i : EReal) (-(x i : EReal))) (Ideal.ofBits .f32 0x7F800000#32) = 1#1 := hi
  rw [inf_word] at hi'
  unfold Ideal.cmp at hi'
  by_cases hlt : max (x i : EReal) (-(x i : EReal)) < ⊤
  · exact real_of_abs_lt_top _ hlt
  · simp [hlt] at hi'

/-- The edge array: the reduction by `and` of `0 ≤ e` and `e < 50000` is one only if every entry is in that range. -/
private theorem range_of_all {s : Shape} {axes : List (Fin s.rank)} (x : IVec s 32)
    (hb : S_.BroadcastsInDim s (![] : Fin 0 → Fin s.rank)) (hr : s.ReducesTo axes S_) (hu : 0 < S_.numel)
    (e : Host.reduce IntOp.andi
        (andi (cmpi .sge x (broadcastInDim s ![] hb (constantI S_ 32 0#32)))
          (cmpi .slt x (broadcastInDim s ![] hb (constantI S_ 32 50000#32))))
        (constantI S_ 1 1#1) hr hu ValueIdx.ix0 = 1#1) (j : s.Idx) :
    0 ≤ (x j).toInt ∧ (x j).toInt < 50000 := by
  have hj := Host.reduce_andi_all _ _ hr hu _ e j
  have hj' : IntOp.andi (IntOp.cmpi .sge (x j) 0#32) (IntOp.cmpi .slt (x j) 50000#32) = 1#1 := hj
  rw [IntOp.andi_eq_one, IntOp.cmpi_sge, IntOp.cmpi_slt] at hj'
  have h0 : (0#32 : BitVec 32).toInt = 0 := StableHlo.Predicate.toInt_ofNat_small 0 (by norm_num)
  have h5 : (50000#32 : BitVec 32).toInt = 50000 := StableHlo.Predicate.toInt_ofNat_small 50000 (by norm_num)
  rw [h0, h5] at hj'
  exact hj'

/-- The precondition, all ones, gives the edge array's range and the float arrays' realness. -/
theorem of_pre [Cert.Pre_finite_inputs.Facts] (x0 : FVec Ideal S50000x640 .f32) (x1 : IVec S200000x2 32)
    (x2 : FVec Ideal S640x64 .f32) (x3 : FVec Ideal S64 .f32) (x4 : FVec Ideal S64x64 .f32) (x5 : FVec Ideal S64 .f32)
    (x6 : FVec Ideal S64x640 .f32) (x7 : FVec Ideal S640 .f32)
    (h : Cert.Pre_finite_inputs.fn (F := Ideal) x0 x1 x2 x3 x4 x5 x6 x7 = fun _ => 1#1) :
    (∀ j, 0 ≤ (x1 j).toInt ∧ (x1 j).toInt < 50000) ∧ Cert.Gcn.IsReal x0 ∧ Cert.Gcn.IsReal x2 ∧ Cert.Gcn.IsReal x3 ∧ Cert.Gcn.IsReal x4
      ∧ Cert.Gcn.IsReal x5 ∧ Cert.Gcn.IsReal x6 ∧ Cert.Gcn.IsReal x7 := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨e0, e2⟩, e3⟩, e4⟩, e5⟩, e6⟩, e7⟩, e1⟩ := e
  exact ⟨range_of_all x1 _ _ _ e1, isReal_of_all x0 _ _ _ e0, isReal_of_all x2 _ _ _ e2, isReal_of_all x3 _ _ _ e3,
    isReal_of_all x4 _ _ _ e4, isReal_of_all x5 _ _ _ e5, isReal_of_all x6 _ _ _ e6, isReal_of_all x7 _ _ _ e7⟩

end Cert.PreFacts

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.GraphFacts.lean ====
/-
  The graph the two programs read off the edge array: each edge's source node, destination node and weight.

  The edge list is the 200000 rows of the edge array followed by one self loop per node. Position `e` of the list has
  source `srcF e` and destination `dstF e`: column 0 and column 1 of row `e` for `e < 200000`, and node `e − 200000` for a
  self loop; when every entry of the array is a node number these are the signed readings of the two index columns.
  The weight of edge `e` is the product of the inverse square roots of the degrees of its two ends, a degree being the
  number of edges into a node and its inverse square root taken only where it is positive (zero otherwise): always a real
  number, whatever the degrees are.
-/
import proofs.«402543_j10170482557309_3_alg».proof.Proof.RefRead
import proofs.«402543_j10170482557309_3_alg».proof.Proof.Spec
import proofs.«402543_j10170482557309_3_alg».proof.Proof.LibIndex
import Idealize.ShloMosaic.Lib.Pipeline.Value
import Idealize.ShloMosaic.Lib.ValueIdx
import Idealize.ShloMosaic.Lib.IdealHost

set_option maxRecDepth 16384

noncomputable section

open scoped BigOperators

namespace Cert.Graph

open Cert.ReferenceIdeal Cert.ReferenceIdeal.Gen Cert.ReferenceIdeal.ReadP Idealize.ShloMosaic Idealize.ShloMosaic.ValueIdx

/-- The edge array. -/
abbrev Edges : Type := (⟨S200000x2, .i32⟩ : BufTy).Contents (Elt Ideal)

/-- A signed row number clamped into the node range. -/
def rowOf (z : ℤ) : Fin 50000 := ⟨min z.toNat 49999, by omega⟩

/-- The source node of position `e` of the edge list (the reference's source column, read signed). -/
def srcF (x1 : Edges) (e : Fin 250000) : Fin 50000 := rowOf (val_main_v5 (F := Ideal) x1 (ix1 e)).toInt

/-- The destination node of position `e` of the edge list. -/
def dstF (x1 : Edges) (e : Fin 250000) : Fin 50000 := rowOf (val_main_v6 (F := Ideal) x1 (ix1 e)).toInt

/-- The weight of position `e` of the edge list. -/
def wgt (x1 : Edges) (e : Fin 250000) : EReal := val_main_v29 (F := Ideal) x1 (ix1 e)

/-! ### Numbers in the node range -/

/-- A number already in the node range is its own clamped row. -/
private theorem rowOf_val {z : ℤ} (h0 : 0 ≤ z) (h1 : z < 50000) : ((rowOf z).val : ℤ) = z := by
  unfold rowOf
  show ((min z.toNat 49999 : ℕ) : ℤ) = z
  omega

/-- The 32-bit word of a natural number below 50000 reads, signed, as that number. -/
private theorem toInt_ofNat_small (n : ℕ) (h : n < 50000) : (BitVec.ofNat 32 n).toInt = (n : ℤ) := by
  rw [BitVec.toInt_eq_toNat_cond, BitVec.toNat_ofNat, Nat.mod_eq_of_lt (by omega)]
  split <;> omega

/-! ### A list of 200000 joined to a list of 50000, read at a position -/

/-- The first 200000 positions of the joined list read the first list. -/
private theorem concat_lo {α : Type} (h : Shape.Concatenates [(⟨1, ![200000]⟩ : Shape), ⟨1, ![50000]⟩] ⟨1, ![250000]⟩ 0)
    (a : (⟨1, ![200000]⟩ : Shape).Idx → α) (b : (⟨1, ![50000]⟩ : Shape).Idx → α) (e : Fin 250000)
    (he : e.val < 200000) :
    concatenate (⟨1, ![250000]⟩ : Shape) 0 [⟨⟨1, ![200000]⟩, a⟩, ⟨⟨1, ![50000]⟩, b⟩] h (ix1 e) = a (ix1 ⟨e.val, he⟩) := by
  refine concatenate_apply_piece (t := ⟨1, ![250000]⟩) (0 : Fin 1) [⟨⟨1, ![200000]⟩, a⟩, ⟨⟨1, ![50000]⟩, b⟩] h (ix1 e) 0
    (Nat.zero_lt_succ _) ⟨1, ![200000]⟩ a rfl rfl 0 rfl (ix1 ⟨e.val, he⟩) ?_ ?_
  · intro c hc
    exact absurd (Subsingleton.elim _ _) hc
  · show 0 + e.val = e.val
    omega

/-- The last 50000 positions read the second list, at the position less 200000. -/
private theorem concat_hi {α : Type} (h : Shape.Concatenates [(⟨1, ![200000]⟩ : Shape), ⟨1, ![50000]⟩] ⟨1, ![250000]⟩ 0)
    (a : (⟨1, ![200000]⟩ : Shape).Idx → α) (b : (⟨1, ![50000]⟩ : Shape).Idx → α) (e : Fin 250000)
    (he : 200000 ≤ e.val) :
    concatenate (⟨1, ![250000]⟩ : Shape) 0 [⟨⟨1, ![200000]⟩, a⟩, ⟨⟨1, ![50000]⟩, b⟩] h (ix1 e)
      = b (ix1 ⟨e.val - 200000, by have := e.isLt; omega⟩) := by
  refine concatenate_apply_piece (t := ⟨1, ![250000]⟩) (0 : Fin 1) [⟨⟨1, ![200000]⟩, a⟩, ⟨⟨1, ![50000]⟩, b⟩] h (ix1 e) 1
    (Nat.lt_succ_self _) ⟨1, ![50000]⟩ b rfl rfl 200000 rfl
    (ix1 ⟨e.val - 200000, by have := e.isLt; omega⟩) ?_ ?_
  · intro c hc
    exact absurd (Subsingleton.elim _ _) hc
  · show 200000 + (e.val - 200000) = e.val
    omega

/-! ### The two index columns at a position of the edge list -/

/-- Below 200000 the source column is column 0 of that row of the edge array. -/
private theorem v5_lo (x1 : Edges) (e : Fin 250000) (he : e.val < 200000) :
    val_main_v5 (F := Ideal) x1 (ix1 e) = x1 (ix2 ⟨e.val, he⟩ 0) := by
  unfold val_main_v5
  refine (concat_lo _ _ _ e he).trans ?_
  rw [val_main_v1_apply, val_main_v0_apply]
  congr 1
  funext a
  match a with
  | ⟨0, _⟩ => exact Fin.ext (Nat.div_one _)
  | ⟨1, _⟩ => rfl

/-- From 200000 on the source column is the self loop's node, `e − 200000`, as a word. -/
private theorem v5_hi (x1 : Edges) (e : Fin 250000) (he : 200000 ≤ e.val) :
    val_main_v5 (F := Ideal) x1 (ix1 e) = BitVec.ofNat 32 (e.val - 200000) := by
  unfold val_main_v5
  exact concat_hi _ _ _ e he

/-- Below 200000 the destination column is column 1 of that row of the edge array. -/
private theorem v6_lo (x1 : Edges) (e : Fin 250000) (he : e.val < 200000) :
    val_main_v6 (F := Ideal) x1 (ix1 e) = x1 (ix2 ⟨e.val, he⟩ 1) := by
  unfold val_main_v6
  refine (concat_lo _ _ _ e he).trans ?_
  rw [val_main_v3_apply, val_main_v2_apply]
  congr 1
  funext a
  match a with
  | ⟨0, _⟩ => exact Fin.ext (Nat.div_one _)
  | ⟨1, _⟩ => rfl

/-- From 200000 on the destination column is the self loop's node as well. -/
private theorem v6_hi (x1 : Edges) (e : Fin 250000) (he : 200000 ≤ e.val) :
    val_main_v6 (F := Ideal) x1 (ix1 e) = BitVec.ofNat 32 (e.val - 200000) := by
  unfold val_main_v6
  exact concat_hi _ _ _ e he

/-- A self loop's node word reads, signed, as a node number. -/
private theorem loop_range (e : Fin 250000) (he : 200000 ≤ e.val) :
    0 ≤ (BitVec.ofNat 32 (e.val - 200000)).toInt ∧ (BitVec.ofNat 32 (e.val - 200000)).toInt < 50000 := by
  have hlt := e.isLt
  rw [toInt_ofNat_small _ (by omega)]
  constructor <;> omega

/-! ### The inverse square roots -/

/-- The inverse square root taken only where the number is positive, and zero elsewhere, is a real number: above zero
    the number is a positive real, whose inverse square root is real, or it is `⊤`, whose inverse square root is 0. -/
private theorem invsqrt_real (d : EReal) :
    ∃ r : ℝ, Scalar.select (Ideal.cmp .ogt d 0) (Ideal.rsqrt d) (0 : EReal) = (r : EReal) := by
  by_cases hd : (0 : EReal) < d
  · have hc : Ideal.cmp .ogt d 0 = 1#1 := by
      show BitVec.ofBool (decide ((0 : EReal) < d)) = 1#1
      rw [decide_eq_true hd]; rfl
    rw [hc, select_one]
    induction d using EReal.rec with
    | bot => exact absurd hd (not_lt_bot)
    | coe r =>
      have hr : (0 : ℝ) < r := by exact_mod_cast hd
      refine ⟨(Real.sqrt r)⁻¹, ?_⟩
      rw [Ideal.rsqrt_coe, if_neg (not_lt.2 hr.le), if_neg hr.ne']
    | top => exact ⟨0, by rw [Ideal.rsqrt_top]; rfl⟩
  · have hc : Ideal.cmp .ogt d 0 = 0#1 := by
      show BitVec.ofBool (decide ((0 : EReal) < d)) = 0#1
      rw [decide_eq_false hd]; rfl
    rw [hc, select_zero]
    exact ⟨0, rfl⟩

/-- Every node's inverse square root of its degree, as the reference computes it, is a real number. -/
private theorem v14_real (x1 : Edges) (i : S50000.Idx) : ∃ r : ℝ, val_main_v14 (F := Ideal) x1 i = (r : EReal) := by
  rw [val_main_v14_apply, val_main_v12_apply, val_main_v13_apply, val_main_v11_apply, val_main_cst_1_apply,
    val_main_call0_v1_apply, val_main_call0_v0_apply, val_main_cst_2_apply]
  rw [Ideal.ofBits_def, Ideal.ofBits_zero_f32, Ideal.cmpf_def, Ideal.hostUnary_rsqrt_def]
  exact invsqrt_real _

/-- Every value of a gather is a value of its operand. -/
private theorem gather_mem {α : Type} {s si t : Shape} {w : ℕ} (d : GatherDims s si t) (x : s.Idx → α) (idx : IVec si w)
    (j : t.Idx) : ∃ i, Host.gather d x idx j = x i := ⟨_, rfl⟩

/-- With every entry a node number, the source column's signed reading is the source node. -/
theorem src_toInt (x1 : Edges) (h : Cert.Gcn.InRange x1) (e : Fin 250000) :
    (val_main_v5 (F := Ideal) x1 (ix1 e)).toInt = ((srcF x1 e).val : ℤ) := by
  have key : 0 ≤ (val_main_v5 (F := Ideal) x1 (ix1 e)).toInt ∧ (val_main_v5 (F := Ideal) x1 (ix1 e)).toInt < 50000 := by
    by_cases he : e.val < 200000
    · rw [v5_lo x1 e he]
      exact h _
    · rw [v5_hi x1 e (not_lt.1 he)]
      exact loop_range e (not_lt.1 he)
  unfold srcF
  exact (rowOf_val key.1 key.2).symm

/-- With every entry a node number, the destination column's signed reading is the destination node. -/
theorem dst_toInt (x1 : Edges) (h : Cert.Gcn.InRange x1) (e : Fin 250000) :
    (val_main_v6 (F := Ideal) x1 (ix1 e)).toInt = ((dstF x1 e).val : ℤ) := by
  have key : 0 ≤ (val_main_v6 (F := Ideal) x1 (ix1 e)).toInt ∧ (val_main_v6 (F := Ideal) x1 (ix1 e)).toInt < 50000 := by
    by_cases he : e.val < 200000
    · rw [v6_lo x1 e he]
      exact h _
    · rw [v6_hi x1 e (not_lt.1 he)]
      exact loop_range e (not_lt.1 he)
  unfold dstF
  exact (rowOf_val key.1 key.2).symm

/-- Every edge weight is a real number. -/
theorem wgt_real (x1 : Edges) : Cert.Gcn.IsReal (wgt x1) := by
  intro e
  -- each factor is the inverse square root of some node's degree
  obtain ⟨i, hi⟩ : ∃ i, val_main_v21 (F := Ideal) x1 (ix1 e) = val_main_v14 (F := Ideal) x1 i := by
    unfold val_main_v21
    exact gather_mem _ _ _ _
  obtain ⟨k, hk⟩ : ∃ k, val_main_v28 (F := Ideal) x1 (ix1 e) = val_main_v14 (F := Ideal) x1 k := by
    unfold val_main_v28
    exact gather_mem _ _ _ _
  obtain ⟨a, ha⟩ := v14_real x1 i
  obtain ⟨b, hb⟩ := v14_real x1 k
  refine ⟨a * b, ?_⟩
  unfold wgt
  rw [val_main_v29_apply]
  show val_main_v21 (F := Ideal) x1 (ix1 e) * val_main_v28 (F := Ideal) x1 (ix1 e) = ((a * b : ℝ) : EReal)
  rw [hi, hk, ha, hb, EReal.coe_mul]

end Cert.Graph

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.RefValue.lean ====
/-
  The reference's result, entry by entry, is three graph-convolution layers in the order transform, propagate, add
  the bias: `Cert.Gcn.refOut` of the graph read off the edge array and of the feature, weight and bias arrays.

  Each layer of the reference multiplies the node matrix by the layer's weight matrix, gathers the product's rows at the
  edges' sources, scales row `e` by the weight of edge `e`, adds the scaled rows into a zero matrix at the edges'
  destinations, and adds the bias to every row; the first two layers end with the positive part. The source column
  goes through a wrap of negative entries first, which does nothing to a column of node numbers.
-/
import proofs.«402543_j10170482557309_3_alg».proof.Proof.RefRead
import proofs.«402543_j10170482557309_3_alg».proof.Proof.Spec
import proofs.«402543_j10170482557309_3_alg».proof.Proof.LibIndex
import proofs.«402543_j10170482557309_3_alg».proof.Proof.LibDot
import proofs.«402543_j10170482557309_3_alg».proof.Proof.GraphFacts
import Idealize.ShloMosaic.Lib.Pipeline.Value
import Idealize.ShloMosaic.Lib.ValueIdx
import Idealize.ShloMosaic.PureOps.Ideal.Laws

set_option maxRecDepth 16384

noncomputable section

open scoped BigOperators

namespace Cert.RefValue

open Cert.ReferenceIdeal Cert.ReferenceIdeal.Gen Cert.ReferenceIdeal.ReadP Idealize.ShloMosaic Idealize.ShloMosaic.ValueIdx

/-! ## One layer, over any operands -/

/-- A choice, on "the word is negative", between another word and the word itself is the word itself where its
    signed reading is not negative. -/
private theorem wrap_of_nonneg (a b : BitVec 32) (h : 0 ≤ a.toInt) :
    Scalar.select (IntOp.cmpi .slt a 0#32) b a = a := by
  have hlt : a.slt 0#32 = false := by
    simp only [BitVec.slt, BitVec.toInt_zero, decide_eq_false_iff_not, Int.not_lt]
    exact h
  show (if BitVec.ofBool (a.slt 0#32) = 1 then b else a) = a
  rw [hlt]
  rfl

/-- One propagation of a transformed node matrix, as the reference computes it: multiply the node matrix by the
    weight matrix, gather the product's rows at the edges' sources, scale each gathered row by its edge's weight, and
    add the scaled rows into a zero matrix at the edges' destinations. At entry `(i, f)` this is the sum, over the
    edges into node `i`, of the product's entry at the edge's source and column `f` times the edge's weight. -/
private theorem layer_apply {K C : ℕ}
    (dd : DotDims ⟨2, ![50000, K]⟩ ⟨2, ![K, C]⟩ ⟨2, ![50000, C]⟩)
    (hd1 : dd.lhsContracting = [1]) (hd2 : dd.rhsContracting = [0]) (hd3 : dd.lhsNonContracting = [0])
    (hd4 : dd.rhsNonContracting = [1]) (hd5 : dd.lhsBatch = []) (hd6 : dd.rhsBatch = [])
    (gd : GatherDims ⟨2, ![50000, C]⟩ ⟨2, ![250000, 1]⟩ ⟨2, ![250000, C]⟩)
    (hg1 : gd.offsetDims = [1]) (hg2 : gd.collapsedSliceDims = [0]) (hg3 : gd.operandBatchingDims = [])
    (hg4 : gd.startIndicesBatchingDims = []) (hg5 : gd.startIndexMap = [0]) (hg6 : gd.indexVectorDim = 1)
    (hg7 : gd.sliceSizes = ![1, C])
    (sd : ScatterDims ⟨2, ![50000, C]⟩ ⟨2, ![250000, 1]⟩ ⟨2, ![250000, C]⟩)
    (hs1 : sd.updateWindowDims = [1]) (hs2 : sd.insertedWindowDims = [0]) (hs3 : sd.scatterDimsToOperandDims = [0])
    (hs4 : sd.indexVectorDim = 1)
    (prec : Option ContractPrecision)
    (H : FVec Ideal ⟨2, ![50000, K]⟩ .f32) (W : FVec Ideal ⟨2, ![K, C]⟩ .f32)
    (idxS idxD : IVec ⟨2, ![250000, 1]⟩ 32) (wcol : FVec Ideal ⟨2, ![250000, C]⟩ .f32)
    (Z : FVec Ideal ⟨2, ![50000, C]⟩ .f32)
    (s d : Fin 250000 → Fin 50000) (w : Fin 250000 → EReal)
    (hS : ∀ e, (idxS (ix2 e (0 : Fin 1))).toInt = ((s e).val : ℤ))
    (hD : ∀ e, (idxD (ix2 e (0 : Fin 1))).toInt = ((d e).val : ℤ))
    (hw : ∀ e c, wcol (ix2 e c) = w e) (hZ : ∀ j, Z j = 0)
    (i : Fin 50000) (f : Fin C) :
    Host.scatterAdd (F := Ideal) sd Z idxD
        (mulf (Host.gather gd (Host.dotGeneral (F := Ideal) dd prec H W) idxS) wcol) (ix2 i f)
      = Cert.Gcn.prop s d w (Cert.Gcn.mm (Cert.Gcn.mat H) (Cert.Gcn.mat W)) i f := by
  rw [Cert.LibIndex.scatterAdd_row_apply_of sd hs1 hs2 hs3 hs4, hZ, zero_add]
  unfold Cert.Gcn.prop
  refine Finset.sum_congr rfl fun e _ => ?_
  rw [hD e]
  by_cases hde : d e = i
  · rw [if_pos hde, if_pos (by rw [hde]), mulf_apply, hw,
      Cert.LibIndex.gather_row_apply_of (by omega) gd hg1 hg2 hg3 hg4 hg5 hg6 hg7 _ idxS e f]
    -- the gathered row: the source's number, read signed, clamped into the node range, is the source itself
    have hrow : ∀ p : min (idxS (ix2 e (0 : Fin 1))).toInt.toNat (50000 - 1) < 50000,
        (⟨min (idxS (ix2 e (0 : Fin 1))).toInt.toNat (50000 - 1), p⟩ : Fin 50000) = s e := by
      intro p
      apply Fin.ext
      show min (idxS (ix2 e (0 : Fin 1))).toInt.toNat (50000 - 1) = (s e).val
      rw [hS e, Int.toNat_natCast]
      have := (s e).isLt
      omega
    rw [hrow, Cert.LibDot.dotGeneral_apply dd hd1 hd2 hd3 hd4 hd5 hd6 prec H W (s e) f]
    rfl
  · rw [if_neg hde, if_neg (fun hh => hde (Fin.ext (Int.ofNat_inj.mp hh)))]

/-! ## The first layer -/

/-- The source column with its negative entries wrapped, read signed at edge `e`, is the edge's source node: with
    every entry a node number the column has no negative entry, and the wrap leaves it as it is. -/
private theorem src1 (x1 : (⟨S200000x2, .i32⟩ : BufTy).Contents (Elt Ideal)) (h : Cert.Gcn.InRange x1) (e : Fin 250000) :
    (val_main_v36 (F := Ideal) x1 (ix2 e (0 : Fin 1))).toInt = ((Cert.Graph.srcF x1 e).val : ℤ) := by
  have hj : idx_main_v36 (ix2 e (0 : Fin 1)) = ix1 e := by
    funext a
    match a with
    | ⟨0, _⟩ => rfl
  have h0 : 0 ≤ (val_main_v5 (F := Ideal) x1 (ix1 e)).toInt := by
    rw [Cert.Graph.src_toInt x1 h e]
    exact Int.natCast_nonneg _
  rw [val_main_v36_apply, hj, val_main_v35_apply, val_main_v32_apply, val_main_v31_apply, val_main_c_6_apply,
    wrap_of_nonneg _ _ h0]
  exact Cert.Graph.src_toInt x1 h e

/-- The destination column, read signed at edge `e`, is the edge's destination node. -/
private theorem dst1 (x1 : (⟨S200000x2, .i32⟩ : BufTy).Contents (Elt Ideal)) (h : Cert.Gcn.InRange x1) (e : Fin 250000) :
    (val_main_v42 (F := Ideal) x1 (ix2 e (0 : Fin 1))).toInt = ((Cert.Graph.dstF x1 e).val : ℤ) := by
  have hj : idx_main_v42 (ix2 e (0 : Fin 1)) = ix1 e := by
    funext a
    match a with
    | ⟨0, _⟩ => rfl
  rw [val_main_v42_apply, hj]
  exact Cert.Graph.dst_toInt x1 h e

/-- The weight column spread over 64 columns: row `e` holds the weight of edge `e` in every column. -/
private theorem wcol1 (x1 : (⟨S200000x2, .i32⟩ : BufTy).Contents (Elt Ideal)) (e : Fin 250000) (c : Fin 64) :
    val_main_v39 (F := Ideal) x1 (ix2 e c) = Cert.Graph.wgt x1 e := by
  have hj : idx_main_v38 (idx_main_v39 (ix2 e c)) = ix1 e := by
    funext a
    match a with
    | ⟨0, _⟩ => rfl
  rw [val_main_v39_apply, val_main_v38_apply, hj]
  rfl

/-- The matrix the first layer adds its rows into is zero. -/
private theorem zero1 (j : S50000x64.Idx) : val_main_v41 (F := Ideal) j = 0 := by
  rw [val_main_v41_apply, val_main_cst_8_apply]
  exact Ideal.ofBits_zero_f32

/-- The first bias spread over the rows: every row holds the bias vector. -/
private theorem bias1 (x3 : (⟨S64, .f32⟩ : BufTy).Contents (Elt Ideal)) (i : Fin 50000) (f : Fin 64) :
    val_main_v45 (F := Ideal) x3 (ix2 i f) = x3 (ix1 f) := by
  have hj : idx_main_v44 (idx_main_v45 (ix2 i f)) = ix1 f := by
    funext a
    match a with
    | ⟨0, _⟩ => rfl
  rw [val_main_v45_apply, val_main_v44_apply, hj]

/-- The matrix the first positive part compares with is zero. -/
private theorem floor1 (j : S50000x64.Idx) : val_main_call1_v0 (F := Ideal) j = 0 := by
  rw [val_main_call1_v0_apply, val_main_call1_cst_apply]
  exact Ideal.ofBits_zero_f32

/-- The first layer before its positive part. -/
private theorem conv1 (x0 : (⟨S50000x640, .f32⟩ : BufTy).Contents (Elt Ideal)) (x1 : (⟨S200000x2, .i32⟩ : BufTy).Contents (Elt Ideal))
    (x2 : (⟨S640x64, .f32⟩ : BufTy).Contents (Elt Ideal)) (x3 : (⟨S64, .f32⟩ : BufTy).Contents (Elt Ideal))
    (h : Cert.Gcn.InRange x1) (i : Fin 50000) (f : Fin 64) :
    val_main_v46 (F := Ideal) x0 x1 x2 x3 (ix2 i f)
      = Cert.Gcn.conv (Cert.Graph.srcF x1) (Cert.Graph.dstF x1) (Cert.Graph.wgt x1) (Cert.Gcn.mat x0) (Cert.Gcn.mat x2)
          (Cert.Gcn.vec x3) i f := by
  rw [val_main_v46_apply]
  show val_main_v43 (F := Ideal) x0 x1 x2 (ix2 i f) + val_main_v45 (F := Ideal) x3 (ix2 i f) = _
  rw [bias1]
  unfold Cert.Gcn.conv
  refine congrArg₂ (· + ·) ?_ rfl
  unfold val_main_v43 val_main_v40 val_main_v37 val_main_v30
  exact layer_apply dot_S50000x640_S640x64_S50000x64_1_0_0_1_n_n rfl rfl rfl rfl rfl rfl
    gather_S50000x64_S250000x1_S250000x64_1_0_n_n_0_1_164 rfl rfl rfl rfl rfl rfl rfl
    scatter_S50000x64_S250000x1_S250000x64_1_0_0_1 rfl rfl rfl rfl none x0 x2
    (val_main_v36 (F := Ideal) x1) (val_main_v42 (F := Ideal) x1) (val_main_v39 (F := Ideal) x1) (val_main_v41 (F := Ideal))
    (Cert.Graph.srcF x1) (Cert.Graph.dstF x1) (Cert.Graph.wgt x1) (src1 x1 h) (dst1 x1 h) (wcol1 x1) zero1 i f

/-- The first layer. -/
private theorem hidden1 (x0 : (⟨S50000x640, .f32⟩ : BufTy).Contents (Elt Ideal)) (x1 : (⟨S200000x2, .i32⟩ : BufTy).Contents (Elt Ideal))
    (x2 : (⟨S640x64, .f32⟩ : BufTy).Contents (Elt Ideal)) (x3 : (⟨S64, .f32⟩ : BufTy).Contents (Elt Ideal))
    (h : Cert.Gcn.InRange x1) :
    Cert.Gcn.mat (val_main_v47 (F := Ideal) x0 x1 x2 x3)
      = Cert.Gcn.relu (Cert.Gcn.conv (Cert.Graph.srcF x1) (Cert.Graph.dstF x1) (Cert.Graph.wgt x1) (Cert.Gcn.mat x0)
          (Cert.Gcn.mat x2) (Cert.Gcn.vec x3)) := by
  funext i f
  show val_main_v47 (F := Ideal) x0 x1 x2 x3 (ix2 i f) = _
  rw [val_main_v47_apply, floor1, conv1 x0 x1 x2 x3 h i f]
  rfl

/-! ## The second layer -/

/-- The source column with its negative entries wrapped, as the second layer reads it. -/
private theorem src2 (x1 : (⟨S200000x2, .i32⟩ : BufTy).Contents (Elt Ideal)) (h : Cert.Gcn.InRange x1) (e : Fin 250000) :
    (val_main_v54 (F := Ideal) x1 (ix2 e (0 : Fin 1))).toInt = ((Cert.Graph.srcF x1 e).val : ℤ) := by
  have hj : idx_main_v54 (ix2 e (0 : Fin 1)) = ix1 e := by
    funext a
    match a with
    | ⟨0, _⟩ => rfl
  have h0 : 0 ≤ (val_main_v5 (F := Ideal) x1 (ix1 e)).toInt := by
    rw [Cert.Graph.src_toInt x1 h e]
    exact Int.natCast_nonneg _
  rw [val_main_v54_apply, hj, val_main_v53_apply, val_main_v50_apply, val_main_v49_apply, val_main_c_9_apply,
    wrap_of_nonneg _ _ h0]
  exact Cert.Graph.src_toInt x1 h e

/-- The destination column, as the second layer reads it. -/
private theorem dst2 (x1 : (⟨S200000x2, .i32⟩ : BufTy).Contents (Elt Ideal)) (h : Cert.Gcn.InRange x1) (e : Fin 250000) :
    (val_main_v60 (F := Ideal) x1 (ix2 e (0 : Fin 1))).toInt = ((Cert.Graph.dstF x1 e).val : ℤ) := by
  have hj : idx_main_v60 (ix2 e (0 : Fin 1)) = ix1 e := by
    funext a
    match a with
    | ⟨0, _⟩ => rfl
  rw [val_main_v60_apply, hj]
  exact Cert.Graph.dst_toInt x1 h e

/-- The weight column spread over 64 columns, as the second layer reads it. -/
private theorem wcol2 (x1 : (⟨S200000x2, .i32⟩ : BufTy).Contents (Elt Ideal)) (e : Fin 250000) (c : Fin 64) :
    val_main_v57 (F := Ideal) x1 (ix2 e c) = Cert.Graph.wgt x1 e := by
  have hj : idx_main_v56 (idx_main_v57 (ix2 e c)) = ix1 e := by
    funext a
    match a with
    | ⟨0, _⟩ => rfl
  rw [val_main_v57_apply, val_main_v56_apply, hj]
  rfl

/-- The matrix the second layer adds its rows into is zero. -/
private theorem zero2 (j : S50000x64.Idx) : val_main_v59 (F := Ideal) j = 0 := by
  rw [val_main_v59_apply, val_main_cst_11_apply]
  exact Ideal.ofBits_zero_f32

/-- The second bias spread over the rows. -/
private theorem bias2 (x5 : (⟨S64, .f32⟩ : BufTy).Contents (Elt Ideal)) (i : Fin 50000) (f : Fin 64) :
    val_main_v63 (F := Ideal) x5 (ix2 i f) = x5 (ix1 f) := by
  have hj : idx_main_v62 (idx_main_v63 (ix2 i f)) = ix1 f := by
    funext a
    match a with
    | ⟨0, _⟩ => rfl
  rw [val_main_v63_apply, val_main_v62_apply, hj]

/-- The matrix the second positive part compares with is zero. -/
private theorem floor2 (j : S50000x64.Idx) : val_main_call2_v0 (F := Ideal) j = 0 := by
  rw [val_main_call2_v0_apply, val_main_call2_cst_apply]
  exact Ideal.ofBits_zero_f32

/-- The second layer before its positive part, over the first layer's result as an array. -/
private theorem conv2 (x0 : (⟨S50000x640, .f32⟩ : BufTy).Contents (Elt Ideal)) (x1 : (⟨S200000x2, .i32⟩ : BufTy).Contents (Elt Ideal))
    (x2 : (⟨S640x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (h : Cert.Gcn.InRange x1) (i : Fin 50000) (f : Fin 64) :
    val_main_v64 (F := Ideal) x0 x1 x2 x3 x4 x5 (ix2 i f)
      = Cert.Gcn.conv (Cert.Graph.srcF x1) (Cert.Graph.dstF x1) (Cert.Graph.wgt x1)
          (Cert.Gcn.mat (val_main_v47 (F := Ideal) x0 x1 x2 x3)) (Cert.Gcn.mat x4) (Cert.Gcn.vec x5) i f := by
  rw [val_main_v64_apply]
  show val_main_v61 (F := Ideal) x0 x1 x2 x3 x4 (ix2 i f) + val_main_v63 (F := Ideal) x5 (ix2 i f) = _
  rw [bias2]
  unfold Cert.Gcn.conv
  refine congrArg₂ (· + ·) ?_ rfl
  unfold val_main_v61 val_main_v58 val_main_v55 val_main_v48
  exact layer_apply dot_S50000x64_S64x64_S50000x64_1_0_0_1_n_n rfl rfl rfl rfl rfl rfl
    gather_S50000x64_S250000x1_S250000x64_1_0_n_n_0_1_164 rfl rfl rfl rfl rfl rfl rfl
    scatter_S50000x64_S250000x1_S250000x64_1_0_0_1 rfl rfl rfl rfl none (val_main_v47 (F := Ideal) x0 x1 x2 x3) x4
    (val_main_v54 (F := Ideal) x1) (val_main_v60 (F := Ideal) x1) (val_main_v57 (F := Ideal) x1) (val_main_v59 (F := Ideal))
    (Cert.Graph.srcF x1) (Cert.Graph.dstF x1) (Cert.Graph.wgt x1) (src2 x1 h) (dst2 x1 h) (wcol2 x1) zero2 i f

/-- The first two layers. -/
private theorem hidden2 (x0 : (⟨S50000x640, .f32⟩ : BufTy).Contents (Elt Ideal)) (x1 : (⟨S200000x2, .i32⟩ : BufTy).Contents (Elt Ideal))
    (x2 : (⟨S640x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (h : Cert.Gcn.InRange x1) :
    Cert.Gcn.mat (val_main_v65 (F := Ideal) x0 x1 x2 x3 x4 x5)
      = Cert.Gcn.hidden (Cert.Graph.srcF x1) (Cert.Graph.dstF x1) (Cert.Graph.wgt x1) (Cert.Gcn.mat x0) (Cert.Gcn.mat x2)
          (Cert.Gcn.vec x3) (Cert.Gcn.mat x4) (Cert.Gcn.vec x5) := by
  funext i f
  show val_main_v65 (F := Ideal) x0 x1 x2 x3 x4 x5 (ix2 i f) = _
  rw [val_main_v65_apply, floor2, conv2 x0 x1 x2 x3 x4 x5 h i f, hidden1 x0 x1 x2 x3 h]
  rfl

/-! ## The third layer -/

/-- The source column with its negative entries wrapped, as the third layer reads it. -/
private theorem src3 (x1 : (⟨S200000x2, .i32⟩ : BufTy).Contents (Elt Ideal)) (h : Cert.Gcn.InRange x1) (e : Fin 250000) :
    (val_main_v72 (F := Ideal) x1 (ix2 e (0 : Fin 1))).toInt = ((Cert.Graph.srcF x1 e).val : ℤ) := by
  have hj : idx_main_v72 (ix2 e (0 : Fin 1)) = ix1 e := by
    funext a
    match a with
    | ⟨0, _⟩ => rfl
  have h0 : 0 ≤ (val_main_v5 (F := Ideal) x1 (ix1 e)).toInt := by
    rw [Cert.Graph.src_toInt x1 h e]
    exact Int.natCast_nonneg _
  rw [val_main_v72_apply, hj, val_main_v71_apply, val_main_v68_apply, val_main_v67_apply, val_main_c_12_apply,
    wrap_of_nonneg _ _ h0]
  exact Cert.Graph.src_toInt x1 h e

/-- The destination column, as the third layer reads it. -/
private theorem dst3 (x1 : (⟨S200000x2, .i32⟩ : BufTy).Contents (Elt Ideal)) (h : Cert.Gcn.InRange x1) (e : Fin 250000) :
    (val_main_v78 (F := Ideal) x1 (ix2 e (0 : Fin 1))).toInt = ((Cert.Graph.dstF x1 e).val : ℤ) := by
  have hj : idx_main_v78 (ix2 e (0 : Fin 1)) = ix1 e := by
    funext a
    match a with
    | ⟨0, _⟩ => rfl
  rw [val_main_v78_apply, hj]
  exact Cert.Graph.dst_toInt x1 h e

/-- The weight column spread over 640 columns. -/
private theorem wcol3 (x1 : (⟨S200000x2, .i32⟩ : BufTy).Contents (Elt Ideal)) (e : Fin 250000) (c : Fin 640) :
    val_main_v75 (F := Ideal) x1 (ix2 e c) = Cert.Graph.wgt x1 e := by
  have hj : idx_main_v74 (idx_main_v75 (ix2 e c)) = ix1 e := by
    funext a
    match a with
    | ⟨0, _⟩ => rfl
  rw [val_main_v75_apply, val_main_v74_apply, hj]
  rfl

/-- The matrix the third layer adds its rows into is zero. -/
private theorem zero3 (j : S50000x640.Idx) : val_main_v77 (F := Ideal) j = 0 := by
  rw [val_main_v77_apply, val_main_cst_14_apply]
  exact Ideal.ofBits_zero_f32

/-- The third bias spread over the rows. -/
private theorem bias3 (x7 : (⟨S640, .f32⟩ : BufTy).Contents (Elt Ideal)) (i : Fin 50000) (f : Fin 640) :
    val_main_v81 (F := Ideal) x7 (ix2 i f) = x7 (ix1 f) := by
  have hj : idx_main_v80 (idx_main_v81 (ix2 i f)) = ix1 f := by
    funext a
    match a with
    | ⟨0, _⟩ => rfl
  rw [val_main_v81_apply, val_main_v80_apply, hj]

/-- The reference's result at row `i`, column `f`. -/
theorem ref_apply (x0 : (⟨S50000x640, .f32⟩ : BufTy).Contents (Elt Ideal)) (x1 : (⟨S200000x2, .i32⟩ : BufTy).Contents (Elt Ideal))
    (x2 : (⟨S640x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x640, .f32⟩ : BufTy).Contents (Elt Ideal)) (x7 : (⟨S640, .f32⟩ : BufTy).Contents (Elt Ideal))
    (h : Cert.Gcn.InRange x1) (i : Fin 50000) (f : Fin 640) :
    val_main_v82 (F := Ideal) x0 x1 x2 x3 x4 x5 x6 x7 (ix2 i f)
      = Cert.Gcn.refOut (Cert.Graph.srcF x1) (Cert.Graph.dstF x1) (Cert.Graph.wgt x1) (Cert.Gcn.mat x0) (Cert.Gcn.mat x2)
          (Cert.Gcn.vec x3) (Cert.Gcn.mat x4) (Cert.Gcn.vec x5) (Cert.Gcn.mat x6) (Cert.Gcn.vec x7) i f := by
  rw [val_main_v82_apply]
  show val_main_v79 (F := Ideal) x0 x1 x2 x3 x4 x5 x6 (ix2 i f) + val_main_v81 (F := Ideal) x7 (ix2 i f) = _
  rw [bias3]
  unfold Cert.Gcn.refOut Cert.Gcn.conv
  rw [← hidden2 x0 x1 x2 x3 x4 x5 h]
  refine congrArg₂ (· + ·) ?_ rfl
  unfold val_main_v79 val_main_v76 val_main_v73 val_main_v66
  exact layer_apply dot_S50000x64_S64x640_S50000x640_1_0_0_1_n_n rfl rfl rfl rfl rfl rfl
    gather_S50000x640_S250000x1_S250000x640_1_0_n_n_0_1_1640 rfl rfl rfl rfl rfl rfl rfl
    scatter_S50000x640_S250000x1_S250000x640_1_0_0_1 rfl rfl rfl rfl none (val_main_v65 (F := Ideal) x0 x1 x2 x3 x4 x5) x6
    (val_main_v72 (F := Ideal) x1) (val_main_v78 (F := Ideal) x1) (val_main_v75 (F := Ideal) x1) (val_main_v77 (F := Ideal))
    (Cert.Graph.srcF x1) (Cert.Graph.dstF x1) (Cert.Graph.wgt x1) (src3 x1 h) (dst3 x1 h) (wcol3 x1) zero3 i f

end Cert.RefValue

end
-- ==== Proof.KDefs.lean ====
/-
  The host side of the kernel's program as pure functions of the arrays it reads.

  Between its three matrix-product kernels the program computes, from the edge array, the source and destination
  columns of the edge list with the self loops appended (`src2`, `dst2`), the node degrees and their inverse square
  roots (`deg`, `dinv`), and the weight column (`normCol`); it pads the node matrices from 50000 to 50176 rows with zero
  rows (`xpad`, `padT`), gathers the rows of a product at the edges' sources (an index below zero is first moved up by
  the row count: `wrap`), scales them by the weights and adds them into the destinations' rows, adds a bias and takes the
  positive part (`hid`); for the last layer it propagates the hidden matrix itself (`prop3`) and, after the kernel,
  drops the padding rows (`sliceOut`).
-/
import proofs.«402543_j10170482557309_3_alg».proof.Proof.Gen.KernelIdeal

noncomputable section

namespace Cert.KernelIdeal.GenV

open Cert.KernelIdeal Cert.KernelIdeal.Gen Idealize.ShloMosaic

variable {F : FTy → Type} [FloatOps F]

/-- The edge array. -/
abbrev Edges (F : FTy → Type) : Type := (⟨S200000x2, .i32⟩ : BufTy).Contents (Elt F)

/-- The sources of the edges, then every node once (the self loops). -/
def src2 (e : Edges F) : (⟨S250000, .i32⟩ : BufTy).Contents (Elt F) :=
  concatenate S250000 0 [⟨S200000, shapeCast _ (extractStridedSlice S200000x1 ![0, 0] e slices_S200000x2_S200000x1_0_0) shapeCasts_S200000x1_S200000⟩, ⟨S50000, iotaInDim S50000 32 0⟩] concatenates_S200000_S50000_S250000_d0

/-- The destinations of the edges, then every node once. -/
def dst2 (e : Edges F) : (⟨S250000, .i32⟩ : BufTy).Contents (Elt F) :=
  concatenate S250000 0 [⟨S200000, shapeCast _ (extractStridedSlice S200000x1 ![0, 1] e slices_S200000x2_S200000x1_0_1) shapeCasts_S200000x1_S200000⟩, ⟨S50000, iotaInDim S50000 32 0⟩] concatenates_S200000_S50000_S250000_d0

/-- A column of row numbers for an array of `n` rows: a negative number is moved up by `n`. -/
def wrap (n : BitVec 32) (v : (⟨S250000, .i32⟩ : BufTy).Contents (Elt F)) : (⟨S250000x1, .i32⟩ : BufTy).Contents (Elt F) :=
  broadcastInDim S250000x1 ![0] bcast_S250000_S250000x1_0
    (select (cmpi .slt v (broadcastInDim S250000 ![] bcast_S_S250000 (constantI S_ 32 0#32)))
      (addi v (broadcastInDim S250000 ![] bcast_S_S250000 (constantI S_ 32 n))) v)

/-- The number of edges into each node. -/
def deg (e : Edges F) : (⟨S50000, .f32⟩ : BufTy).Contents (Elt F) :=
  Host.scatterAdd scatter_S50000_S250000x1_S250000_n_0_0_1 (broadcastInDim S50000 ![] bcast_S_S50000 (constant S_ .f32 0x00000000#32))
    (broadcastInDim S250000x1 ![0] bcast_S250000_S250000x1_0 (dst2 e)) (broadcastInDim S250000 ![] bcast_S_S250000 (constant S_ .f32 0x3F800000#32))

/-- The inverse square root of a positive degree, zero otherwise. -/
def dinv (e : Edges F) : (⟨S50000, .f32⟩ : BufTy).Contents (Elt F) :=
  select (cmpf .ogt (deg e) (broadcastInDim S50000 ![] bcast_S_S50000 (constant S_ .f32 0x00000000#32))) (Host.rsqrt (deg e))
    (broadcastInDim S50000 ![] bcast_S_S50000 (constant S_ .f32 0x00000000#32))

/-- The weight of each edge, as a column. -/
def normCol (e : Edges F) : (⟨S250000x1, .f32⟩ : BufTy).Contents (Elt F) :=
  broadcastInDim S250000x1 ![0] bcast_S250000_S250000x1_0
    (mulf (Host.gather gather_S50000_S250000x1_S250000_n_0_n_n_0_1_1 (dinv e) (wrap 50000#32 (src2 e)))
      (Host.gather gather_S50000_S250000x1_S250000_n_0_n_n_0_1_1 (dinv e) (wrap 50000#32 (dst2 e))))

/-- The feature matrix with 176 zero rows appended. -/
def xpad (x : (⟨S50000x640, .f32⟩ : BufTy).Contents (Elt F)) : (⟨S50176x640, .bf16⟩ : BufTy).Contents (Elt F) :=
  truncf .bf16 (pad S50176x640 ![0, 0] ![176, 0] ![0, 0] x (sitofp .f32 (constantI S_ 32 0#32)) pads_S50000x640_S50176x640_01760_000 h_S_) bitsLt_bf16_f32

/-- A 64-column node matrix with 176 zero rows appended. -/
def padT (H : (⟨S50000x64, .f32⟩ : BufTy).Contents (Elt F)) : (⟨S50176x64, .bf16⟩ : BufTy).Contents (Elt F) :=
  truncf .bf16 (pad S50176x64 ![0, 0] ![176, 0] ![0, 0] H (sitofp .f32 (constantI S_ 32 0#32)) pads_S50000x64_S50176x64_01760_000 h_S_) bitsLt_bf16_f32

/-- The three weight matrices as the kernels take them. -/
def wb1 (W : (⟨S640x64, .f32⟩ : BufTy).Contents (Elt F)) : (⟨S640x64, .bf16⟩ : BufTy).Contents (Elt F) := truncf .bf16 W bitsLt_bf16_f32
def wb2 (W : (⟨S64x64, .f32⟩ : BufTy).Contents (Elt F)) : (⟨S64x64, .bf16⟩ : BufTy).Contents (Elt F) := truncf .bf16 W bitsLt_bf16_f32
def wb3 (W : (⟨S64x640, .f32⟩ : BufTy).Contents (Elt F)) : (⟨S64x640, .bf16⟩ : BufTy).Contents (Elt F) := truncf .bf16 W bitsLt_bf16_f32

/-- The zero bias row of the first two kernels. -/
def zero64 : (⟨S1x64, .f32⟩ : BufTy).Contents (Elt F) := broadcastInDim S1x64 ![] bcast_S_S1x64 (constant S_ .f32 0x00000000#32)

/-- The last bias as a row. -/
def b3r (b : (⟨S640, .f32⟩ : BufTy).Contents (Elt F)) : (⟨S1x640, .f32⟩ : BufTy).Contents (Elt F) := shapeCast S1x640 b shapeCasts_S640_S1x640

/-- From a kernel's product `T` (50176 rows): gather at the sources, scale, add into the destinations, add the bias,
    positive part. -/
def hid (T : (⟨S50176x64, .bf16⟩ : BufTy).Contents (Elt F)) (e : Edges F) (b : (⟨S64, .f32⟩ : BufTy).Contents (Elt F)) :
    (⟨S50000x64, .f32⟩ : BufTy).Contents (Elt F) :=
  maximumf
    (addf
      (Host.scatterAdd scatter_S50000x64_S250000x1_S250000x64_1_0_0_1 (broadcastInDim S50000x64 ![] bcast_S_S50000x64 (constant S_ .f32 0x00000000#32))
        (broadcastInDim S250000x1 ![0] bcast_S250000_S250000x1_0 (dst2 e))
        (mulf (extf .f32 (Host.gather gather_S50176x64_S250000x1_S250000x64_1_0_n_n_0_1_164 T (wrap 50176#32 (src2 e))) bitsLt_bf16_f32)
          (broadcastInDim S250000x64 ![0, 1] bcast_S250000x1_S250000x64_0_1 (normCol e))))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The propagation of the hidden matrix itself (the last layer's, before its kernel). -/
def prop3 (H : (⟨S50000x64, .f32⟩ : BufTy).Contents (Elt F)) (e : Edges F) : (⟨S50000x64, .f32⟩ : BufTy).Contents (Elt F) :=
  Host.scatterAdd scatter_S50000x64_S250000x1_S250000x64_1_0_0_1 (broadcastInDim S50000x64 ![] bcast_S_S50000x64 (constant S_ .f32 0x00000000#32))
    (broadcastInDim S250000x1 ![0] bcast_S250000_S250000x1_0 (dst2 e))
    (mulf (Host.gather gather_S50000x64_S250000x1_S250000x64_1_0_n_n_0_1_164 H (wrap 50000#32 (src2 e)))
      (broadcastInDim S250000x64 ![0, 1] bcast_S250000x1_S250000x64_0_1 (normCol e)))

/-- The first 50000 rows of the last kernel's result. -/
def sliceOut (R : (⟨S50176x640, .f32⟩ : BufTy).Contents (Elt F)) : (⟨S50000x640, .f32⟩ : BufTy).Contents (Elt F) :=
  extractStridedSlice S50000x640 ![0, 0] R slices_S50176x640_S50000x640_0_0

end Cert.KernelIdeal.GenV

end
-- ==== Proof.KFold.lean ====
/-
  What the kernel's three matrix-product kernels are given, and what the program returns, as the host-side functions of
  the arguments and of the earlier kernels' results: the contents of each kernel's operand arrays when it is entered
  (the fold of the host operations before it over the launch memory and the earlier kernels' write-backs), and the
  returned array as the rows kept of the last kernel's result.
-/
import proofs.«402543_j10170482557309_3_alg».proof.Proof.Gen.KernelIdeal.Frame
import proofs.«402543_j10170482557309_3_alg».proof.Proof.KDefs

set_option maxRecDepth 16384

noncomputable section

namespace Cert.KernelIdeal.GenV

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first kernel's operands -/

theorem in0_0 (c : Dev nD) : V5 m ρ c (Pipeline.arrRef spec0 0) = xpad (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_v37) = _
  simp only [hostOps0_4, hostOps0_3]
  after_results
  first | rfl | (simp only [TRef.ofBuf, TRef.toBuf, cast_eq]; rfl)

theorem in0_1 (c : Dev nD) : V5 m ρ c (Pipeline.arrRef spec0 1) = wb1 (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v31) = _
  after_results
  first | rfl | (simp only [TRef.ofBuf, TRef.toBuf, cast_eq]; rfl)

theorem in0_2 (c : Dev nD) : V5 m ρ c (Pipeline.arrRef spec0 2) = (zero64 : (⟨S1x64, .f32⟩ : BufTy).Contents (Elt F)) := by
  show StableHlo.after hostOps0_4 (StableHlo.after hostOps0_3 (StableHlo.after hostOps0_2 (StableHlo.after hostOps0_1 (StableHlo.after hostOps0 (W0 m ρ c))))) (Proc.devRef .tc main_v34) = _
  after_results
  first | rfl | (simp only [TRef.ofBuf, TRef.toBuf, cast_eq]; rfl)

/-! ## What the first kernel finds at the buffers the later stretches read

The edge columns, the weight column, the later kernels' weight matrices and the last bias row are all computed before the
first kernel; the biases of the hidden layers are arguments, which nothing writes. -/

private theorem W5_v5 (c : Dev nD) : W5 m ρ c (Proc.devRef .tc main_v5) = src2 (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v5) = _
  after_results
  first | rfl | (simp only [TRef.ofBuf, TRef.toBuf, cast_eq]; rfl)

private theorem W5_v6 (c : Dev nD) : W5 m ρ c (Proc.devRef .tc main_v6) = dst2 (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v6) = _
  after_results
  first | rfl | (simp only [TRef.ofBuf, TRef.toBuf, cast_eq]; rfl)

set_option maxHeartbeats 2000000 in
/-- The weight column reads the degrees twice and each edge column three times: the fold is taken in one pass that
    visits each shared intermediate once. -/
private theorem W5_v30 (c : Dev nD) : W5 m ρ c (Proc.devRef .tc main_v30) = normCol (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v30) = _
  after_results_simp
  first | rfl | (simp only [TRef.ofBuf, TRef.toBuf, cast_eq]; rfl)

private theorem W5_v32 (c : Dev nD) : W5 m ρ c (Proc.devRef .tc main_v32) = wb2 (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_v32) = _
  after_results
  first | rfl | (simp only [TRef.ofBuf, TRef.toBuf, cast_eq]; rfl)

private theorem W5_v33 (c : Dev nD) : W5 m ρ c (Proc.devRef .tc main_v33) = wb3 (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_v33) = _
  after_results
  first | rfl | (simp only [TRef.ofBuf, TRef.toBuf, cast_eq]; rfl)

private theorem W5_v35 (c : Dev nD) : W5 m ρ c (Proc.devRef .tc main_v35) = b3r (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_v35) = _
  after_results
  first | rfl | (simp only [TRef.ofBuf, TRef.toBuf, cast_eq]; rfl)

private theorem W5_arg3 (c : Dev nD) : W5 m ρ c (Proc.devRef .tc main_arg3) = (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_arg3) = _
  after_results

private theorem W5_arg5 (c : Dev nD) : W5 m ρ c (Proc.devRef .tc main_arg5) = (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_arg5) = _
  after_results

/-! ## The first kernel writes only its own arrays

Its result array holds the write-backs folded; its bias row, an input, is as entered; every other buffer is as the
kernel found it. -/

private theorem W6_v5 (c : Dev nD) : W6 m ρ c (Proc.devRef .tc main_v5) = src2 (m ((c : Thread nD τ).loc main_arg1)) := by
  rw [W6_of_ne m ρ c main_v5 (by decide)]; exact W5_v5 m ρ c

private theorem W6_v6 (c : Dev nD) : W6 m ρ c (Proc.devRef .tc main_v6) = dst2 (m ((c : Thread nD τ).loc main_arg1)) := by
  rw [W6_of_ne m ρ c main_v6 (by decide)]; exact W5_v6 m ρ c

private theorem W6_v30 (c : Dev nD) : W6 m ρ c (Proc.devRef .tc main_v30) = normCol (m ((c : Thread nD τ).loc main_arg1)) := by
  rw [W6_of_ne m ρ c main_v30 (by decide)]; exact W5_v30 m ρ c

private theorem W6_v32 (c : Dev nD) : W6 m ρ c (Proc.devRef .tc main_v32) = wb2 (m ((c : Thread nD τ).loc main_arg4)) := by
  rw [W6_of_ne m ρ c main_v32 (by decide)]; exact W5_v32 m ρ c

private theorem W6_v33 (c : Dev nD) : W6 m ρ c (Proc.devRef .tc main_v33) = wb3 (m ((c : Thread nD τ).loc main_arg6)) := by
  rw [W6_of_ne m ρ c main_v33 (by decide)]; exact W5_v33 m ρ c

private theorem W6_v35 (c : Dev nD) : W6 m ρ c (Proc.devRef .tc main_v35) = b3r (m ((c : Thread nD τ).loc main_arg7)) := by
  rw [W6_of_ne m ρ c main_v35 (by decide)]; exact W5_v35 m ρ c

private theorem W6_arg3 (c : Dev nD) : W6 m ρ c (Proc.devRef .tc main_arg3) = (m ((c : Thread nD τ).loc main_arg3)) := by
  rw [W6_of_ne m ρ c main_arg3 (by decide)]; exact W5_arg3 m ρ c

private theorem W6_arg5 (c : Dev nD) : W6 m ρ c (Proc.devRef .tc main_arg5) = (m ((c : Thread nD τ).loc main_arg5)) := by
  rw [W6_of_ne m ρ c main_arg5 (by decide)]; exact W5_arg5 m ρ c

private theorem W6_v38 (c : Dev nD) : W6 m ρ c (Proc.devRef .tc main_v38) = (dat0 (V5 m ρ) c).arrAt 3 cfg0.N :=
  W6_arr m ρ c 3

/-- The zero bias row is an input of the first kernel: an input array is never written back. -/
private theorem W6_v34 (c : Dev nD) : W6 m ρ c (Proc.devRef .tc main_v34) = (zero64 : (⟨S1x64, .f32⟩ : BufTy).Contents (Elt F)) := by
  rw [show W6 m ρ c (Proc.devRef .tc main_v34) = (dat0 (V5 m ρ) c).arrAt 2 cfg0.N from W6_arr m ρ c 2,
    (dat0 (V5 m ρ) c).arrAt_in 2 (by decide) cfg0.N, A_eq0]
  exact in0_2 m ρ c

/-! ## The second kernel's operands: the first kernel's result, propagated -/

set_option maxHeartbeats 2000000 in
theorem in1_0 (c : Dev nD) : V11 m ρ c (Pipeline.arrRef spec1 0)
    = padT (hid ((dat0 (V5 m ρ) c).arrAt 3 cfg0.N) (m ((c : Thread nD τ).loc main_arg1)) (m ((c : Thread nD τ).loc main_arg3))) := by
  show StableHlo.after hostOps1_4 (StableHlo.after hostOps1_3 (StableHlo.after hostOps1_2 (StableHlo.after hostOps1_1 (StableHlo.after hostOps1 (W6 m ρ c))))) (Proc.devRef .tc main_v57) = _
  after_results_simp
  rw [W6_v5, W6_v6, W6_v30, W6_v38, W6_arg3]
  first | rfl | (simp only [TRef.ofBuf, TRef.toBuf, cast_eq]; rfl)

theorem in1_1 (c : Dev nD) : V11 m ρ c (Pipeline.arrRef spec1 1) = wb2 (m ((c : Thread nD τ).loc main_arg4)) := by
  show StableHlo.after hostOps1_4 (StableHlo.after hostOps1_3 (StableHlo.after hostOps1_2 (StableHlo.after hostOps1_1 (StableHlo.after hostOps1 (W6 m ρ c))))) (Proc.devRef .tc main_v32) = _
  after_results
  exact W6_v32 m ρ c

theorem in1_2 (c : Dev nD) : V11 m ρ c (Pipeline.arrRef spec1 2) = (zero64 : (⟨S1x64, .f32⟩ : BufTy).Contents (Elt F)) := by
  show StableHlo.after hostOps1_4 (StableHlo.after hostOps1_3 (StableHlo.after hostOps1_2 (StableHlo.after hostOps1_1 (StableHlo.after hostOps1 (W6 m ρ c))))) (Proc.devRef .tc main_v34) = _
  after_results
  exact W6_v34 m ρ c

/-! ## What the second kernel finds, and leaves, at the buffers the last stretch reads

The stretch between the first two kernels writes none of them, and the second kernel writes only its own arrays. -/

private theorem W11_v5 (c : Dev nD) : W11 m ρ c (Proc.devRef .tc main_v5) = src2 (m ((c : Thread nD τ).loc main_arg1)) := by
  show StableHlo.after hostOps1_4 (StableHlo.after hostOps1_3 (StableHlo.after hostOps1_2 (StableHlo.after hostOps1_1 (StableHlo.after hostOps1 (W6 m ρ c))))) (Proc.devRef .tc main_v5) = _
  after_results
  exact W6_v5 m ρ c
private theorem W12_v5 (c : Dev nD) : W12 m ρ c (Proc.devRef .tc main_v5) = src2 (m ((c : Thread nD τ).loc main_arg1)) := by
  rw [W12_of_ne m ρ c main_v5 (by decide)]; exact W11_v5 m ρ c

private theorem W11_v6 (c : Dev nD) : W11 m ρ c (Proc.devRef .tc main_v6) = dst2 (m ((c : Thread nD τ).loc main_arg1)) := by
  show StableHlo.after hostOps1_4 (StableHlo.after hostOps1_3 (StableHlo.after hostOps1_2 (StableHlo.after hostOps1_1 (StableHlo.after hostOps1 (W6 m ρ c))))) (Proc.devRef .tc main_v6) = _
  after_results
  exact W6_v6 m ρ c
private theorem W12_v6 (c : Dev nD) : W12 m ρ c (Proc.devRef .tc main_v6) = dst2 (m ((c : Thread nD τ).loc main_arg1)) := by
  rw [W12_of_ne m ρ c main_v6 (by decide)]; exact W11_v6 m ρ c

private theorem W11_v30 (c : Dev nD) : W11 m ρ c (Proc.devRef .tc main_v30) = normCol (m ((c : Thread nD τ).loc main_arg1)) := by
  show StableHlo.after hostOps1_4 (StableHlo.after hostOps1_3 (StableHlo.after hostOps1_2 (StableHlo.after hostOps1_1 (StableHlo.after hostOps1 (W6 m ρ c))))) (Proc.devRef .tc main_v30) = _
  after_results
  exact W6_v30 m ρ c
private theorem W12_v30 (c : Dev nD) : W12 m ρ c (Proc.devRef .tc main_v30) = normCol (m ((c : Thread nD τ).loc main_arg1)) := by
  rw [W12_of_ne m ρ c main_v30 (by decide)]; exact W11_v30 m ρ c

private theorem W11_v33 (c : Dev nD) : W11 m ρ c (Proc.devRef .tc main_v33) = wb3 (m ((c : Thread nD τ).loc main_arg6)) := by
  show StableHlo.after hostOps1_4 (StableHlo.after hostOps1_3 (StableHlo.after hostOps1_2 (StableHlo.after hostOps1_1 (StableHlo.after hostOps1 (W6 m ρ c))))) (Proc.devRef .tc main_v33) = _
  after_results
  exact W6_v33 m ρ c
private theorem W12_v33 (c : Dev nD) : W12 m ρ c (Proc.devRef .tc main_v33) = wb3 (m ((c : Thread nD τ).loc main_arg6)) := by
  rw [W12_of_ne m ρ c main_v33 (by decide)]; exact W11_v33 m ρ c

private theorem W11_v35 (c : Dev nD) : W11 m ρ c (Proc.devRef .tc main_v35) = b3r (m ((c : Thread nD τ).loc main_arg7)) := by
  show StableHlo.after hostOps1_4 (StableHlo.after hostOps1_3 (StableHlo.after hostOps1_2 (StableHlo.after hostOps1_1 (StableHlo.after hostOps1 (W6 m ρ c))))) (Proc.devRef .tc main_v35) = _
  after_results
  exact W6_v35 m ρ c
private theorem W12_v35 (c : Dev nD) : W12 m ρ c (Proc.devRef .tc main_v35) = b3r (m ((c : Thread nD τ).loc main_arg7)) := by
  rw [W12_of_ne m ρ c main_v35 (by decide)]; exact W11_v35 m ρ c

private theorem W11_arg5 (c : Dev nD) : W11 m ρ c (Proc.devRef .tc main_arg5) = (m ((c : Thread nD τ).loc main_arg5)) := by
  show StableHlo.after hostOps1_4 (StableHlo.after hostOps1_3 (StableHlo.after hostOps1_2 (StableHlo.after hostOps1_1 (StableHlo.after hostOps1 (W6 m ρ c))))) (Proc.devRef .tc main_arg5) = _
  after_results
  exact W6_arg5 m ρ c
private theorem W12_arg5 (c : Dev nD) : W12 m ρ c (Proc.devRef .tc main_arg5) = (m ((c : Thread nD τ).loc main_arg5)) := by
  rw [W12_of_ne m ρ c main_arg5 (by decide)]; exact W11_arg5 m ρ c

private theorem W12_v58 (c : Dev nD) : W12 m ρ c (Proc.devRef .tc main_v58) = (dat1 (V11 m ρ) c).arrAt 3 cfg1.N :=
  W12_arr m ρ c 3

/-! ## The third kernel's operands: the second kernel's result, propagated twice -/

set_option maxHeartbeats 2000000 in
theorem in2_0 (c : Dev nD) : V17 m ρ c (Pipeline.arrRef spec2 0)
    = padT (prop3 (hid ((dat1 (V11 m ρ) c).arrAt 3 cfg1.N) (m ((c : Thread nD τ).loc main_arg1)) (m ((c : Thread nD τ).loc main_arg5)))
        (m ((c : Thread nD τ).loc main_arg1))) := by
  show StableHlo.after hostOps2_4 (StableHlo.after hostOps2_3 (StableHlo.after hostOps2_2 (StableHlo.after hostOps2_1 (StableHlo.after hostOps2 (W12 m ρ c))))) (Proc.devRef .tc main_v89) = _
  after_results_simp
  rw [W12_v5, W12_v6, W12_v30, W12_v58, W12_arg5]
  first | rfl | (simp only [TRef.ofBuf, TRef.toBuf, cast_eq]; rfl)

theorem in2_1 (c : Dev nD) : V17 m ρ c (Pipeline.arrRef spec2 1) = wb3 (m ((c : Thread nD τ).loc main_arg6)) := by
  show StableHlo.after hostOps2_4 (StableHlo.after hostOps2_3 (StableHlo.after hostOps2_2 (StableHlo.after hostOps2_1 (StableHlo.after hostOps2 (W12 m ρ c))))) (Proc.devRef .tc main_v33) = _
  after_results
  exact W12_v33 m ρ c

theorem in2_2 (c : Dev nD) : V17 m ρ c (Pipeline.arrRef spec2 2) = b3r (m ((c : Thread nD τ).loc main_arg7)) := by
  show StableHlo.after hostOps2_4 (StableHlo.after hostOps2_3 (StableHlo.after hostOps2_2 (StableHlo.after hostOps2_1 (StableHlo.after hostOps2 (W12 m ρ c))))) (Proc.devRef .tc main_v35) = _
  after_results
  exact W12_v35 m ρ c

/-! ## The returned array -/

theorem out (c : Dev nD) : W19 m ρ c (Proc.devRef .tc main_v91) = sliceOut ((dat2 (V17 m ρ) c).arrAt 3 cfg2.N) := by
  show StableHlo.after hostOps3 (W18 m ρ c) (Proc.devRef .tc main_v91) = _
  after_results
  rw [show W18 m ρ c (Proc.devRef .tc main_v90) = (dat2 (V17 m ρ) c).arrAt 3 cfg2.N from W18_arr m ρ c 3]
  first | rfl | (simp only [TRef.ofBuf, TRef.toBuf, cast_eq]; rfl)

end Cert.KernelIdeal.GenV

end
-- ==== Proof.KRegion.lean ====
/-
  Each of the three matrix-product kernels' result arrays, entry by entry.

  A kernel's grid cuts the 50176 rows of its operand and of its result into equal blocks (7 of 7168 rows, or 28 of
  1792); the weight matrix and the bias row are whole at every grid point. At a grid point the body stores, into the
  result's block, the product of the operand's block with the weight matrix plus the bias row broadcast over the rows.
  Every row lies in exactly one block, so after the last grid point the result array holds, at row `r` and column `f`,
  the sum over `k` of the operand at `(r, k)` times the weight at `(k, f)`, plus the bias at `f`.
-/
import proofs.«402543_j10170482557309_3_alg».proof.Proof.Gen.KernelIdeal.Frame
import proofs.«402543_j10170482557309_3_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GenV

open Cert.KernelIdeal Cert.KernelIdeal.Gen Idealize.ShloMosaic Idealize.ShloMosaic.TcCoe Idealize.SL.Sem Idealize.ShloMosaic.ValueIdx

/-- Both offsets of an access to a whole buffer are zero. -/
private theorem zeros2 : (![0, 0] : Fin 2 → Nat) = fun _ => 0 :=
  funext fun a => by match a with | ⟨0, _⟩ => rfl | ⟨1, _⟩ => rfl

/-! ## Kernel 0: a 50176 × 640 operand times a 640 × 64 weight, plus a bias row -/

/-- What the body stores at row `p`, column `q` of its block: the row `p` of the operand's block times the column `q` of
    the weight, plus the bias at `q` (the product accumulates from zero; narrowing the result changes no ideal value). -/
private theorem pay0_apply (x0 : Vec Ideal S7168x640 .bf16) (x1 : Vec Ideal S640x64 .bf16) (x2 : Vec Ideal S1x64 .f32)
    (p : Fin 7168) (q : Fin 64) :
    (k0_pay1 (F := Ideal) x0 x1 x2 : FVec Ideal S7168x64 .bf16) (ix2 p q)
      = (∑ k : Fin 640, x0 (ix2 p k) * x1 (ix2 k q)) + x2 (ix2 (0 : Fin 1) q) := by
  unfold k0_pay1
  rw [truncf_apply, addf_apply, shapeCast_self, shapeCast_self, shapeCast_self,
    Cert.LibDot.matmul_zero_apply _ rfl rfl rfl rfl rfl rfl, broadcastTo_1b_ab_apply]

/-- The block index of each window at each of the 7 grid points: the operand's and the result's block is the point's
    own number down the rows; the weight and the bias are one block each. -/
private theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Kernel0

variable (V : (c : Dev nD) → (b : Ref sig .tc) → Buf (Elt Ideal) ((c : Thread nD τ).loc b)) (c : Dev nD)

/-- Row `p` of the operand's block at point `t` is row `7168 t + p` of the operand. -/
private theorem opnd0_at (X : FVec Ideal S50176x640 .bf16) (hX : V c (Pipeline.arrRef spec0 0) = X) (t : Fin cfg0.N)
    (p : Fin 7168) (k : Fin 640) (r : Fin 50176) (hr : r.val = t.val * 7168 + p.val) :
    (iblk0 (F := Ideal) V c 0 t : Vec Ideal S7168x640 .bf16) (ix2 p k) = X (ix2 r k) := by
  unfold iblk0
  rw [hX]
  show X (((cfg0.win 0).blk t).view.emb (ix2 p k)) = X (ix2 r k)
  congr 1
  funext a
  apply Fin.ext
  obtain ⟨e0, e1, -⟩ := idx0 t
  match a with
  | ⟨0, _⟩ =>
    show win0_0.index t (0 : Fin 2) * 7168 + 1 * p.val = r.val
    omega
  | ⟨1, _⟩ =>
    show win0_0.index t (1 : Fin 2) * 640 + 1 * k.val = k.val
    omega

/-- The weight's block at any point is the weight. -/
private theorem wgt0_at (W : FVec Ideal S640x64 .bf16) (hW : V c (Pipeline.arrRef spec0 1) = W) (t : Fin cfg0.N)
    (k : Fin 640) (q : Fin 64) :
    (iblk0 (F := Ideal) V c 1 t : Vec Ideal S640x64 .bf16) (ix2 k q) = W (ix2 k q) := by
  unfold iblk0
  rw [hW]
  show W (((cfg0.win 1).blk t).view.emb (ix2 k q)) = W (ix2 k q)
  congr 1
  funext a
  apply Fin.ext
  obtain ⟨-, -, e0, e1, -⟩ := idx0 t
  match a with
  | ⟨0, _⟩ =>
    show win0_1.index t (0 : Fin 2) * 640 + 1 * k.val = k.val
    omega
  | ⟨1, _⟩ =>
    show win0_1.index t (1 : Fin 2) * 64 + 1 * q.val = q.val
    omega

/-- The bias's block at any point is the bias row. -/
private theorem bias0_at (B : FVec Ideal S1x64 .f32) (hB : V c (Pipeline.arrRef spec0 2) = B) (t : Fin cfg0.N)
    (z : Fin 1) (q : Fin 64) :
    (iblk0 (F := Ideal) V c 2 t : Vec Ideal S1x64 .f32) (ix2 z q) = B (ix2 z q) := by
  unfold iblk0
  rw [hB]
  show B (((cfg0.win 2).blk t).view.emb (ix2 z q)) = B (ix2 z q)
  congr 1
  funext a
  apply Fin.ext
  obtain ⟨-, -, -, -, e0, e1, -⟩ := idx0 t
  match a with
  | ⟨0, _⟩ =>
    show win0_2.index t (0 : Fin 2) * 1 + 1 * z.val = z.val
    omega
  | ⟨1, _⟩ =>
    show win0_2.index t (1 : Fin 2) * 64 + 1 * q.val = q.val
    omega

/-- The whole result: at `(r, f)`, the operand's row `r` times the weight's column `f`, plus the bias at `f`. -/
private def lin0 (X : FVec Ideal S50176x640 .bf16) (W : FVec Ideal S640x64 .bf16) (B : FVec Ideal S1x64 .f32) :
    FVec Ideal S50176x64 .bf16 := fun i =>
  (∑ k : Fin 640, X (ix2 (i 0) k) * W (ix2 k (i 1))) + B (ix2 (0 : Fin 1) (i 1))

/-- What point `t` writes back is its block of rows of `lin0`: row `p` of the block is row `7168 t + p` of the
    result, computed from the same row of the operand. -/
private theorem wrote0 (X : FVec Ideal S50176x640 .bf16) (W : FVec Ideal S640x64 .bf16) (B : FVec Ideal S1x64 .f32)
    (hX : V c (Pipeline.arrRef spec0 0) = X) (hW : V c (Pipeline.arrRef spec0 1) = W) (hB : V c (Pipeline.arrRef spec0 2) = B)
    (t : Fin cfg0.N) :
    (dat0 (F := Ideal) V c).flushed 3 t = ((cfg0.win 3).blk t).view.read (Elt Ideal) (lin0 X W B) := by
  show (cfg0.win 3).cut (grid0.coords t) ((dat0 V c).after 3 t) = _
  rw [after0_3]
  unfold out0_3
  rw [View.canon_unit_zero zeros2]
  simp only [View.ld_unit_zero (S := S7168x640) zeros2, View.ld_unit_zero (S := S640x64) zeros2, View.ld_unit_zero (S := S1x64) zeros2]
  funext j
  obtain ⟨p, q, rfl⟩ : ∃ (p : Fin 7168) (q : Fin 64), j = ix2 p q := ⟨j 0, j 1, eq_ix2 j⟩
  obtain ⟨-, -, -, -, -, -, e0, e1⟩ := idx0 t
  have ht : t.val < 7 := lt_of_lt_of_eq t.isLt N_0
  have hr : t.val * 7168 + p.val < 50176 := by have := p.isLt; omega
  have he : ((cfg0.win 3).blk t).view.emb (ix2 p q) = ix2 (⟨t.val * 7168 + p.val, hr⟩ : Fin 50176) q := by
    funext a
    apply Fin.ext
    match a with
    | ⟨0, _⟩ =>
      show win0_3.index t (0 : Fin 2) * 7168 + 1 * p.val = t.val * 7168 + p.val
      omega
    | ⟨1, _⟩ =>
      show win0_3.index t (1 : Fin 2) * 64 + 1 * q.val = q.val
      omega
  show k0_pay1 (iblk0 V c 0 t) (iblk0 V c 1 t) (iblk0 V c 2 t) (ix2 p q)
    = lin0 X W B (((cfg0.win 3).blk t).view.emb (ix2 p q))
  rw [he]
  refine (pay0_apply (iblk0 V c 0 t) (iblk0 V c 1 t) (iblk0 V c 2 t) p q).trans ?_
  show _ = (∑ k : Fin 640, X (ix2 (⟨t.val * 7168 + p.val, hr⟩ : Fin 50176) k) * W (ix2 k q)) + B (ix2 (0 : Fin 1) q)
  rw [bias0_at V c B hB t 0 q]
  congr 1
  exact Finset.sum_congr rfl fun k _ => by
    rw [opnd0_at V c X hX t p k ⟨t.val * 7168 + p.val, hr⟩ rfl, wgt0_at V c W hW t k q]

/-- An entry of the result is in point `t`'s block iff each coordinate is in the block's range on its axis. -/
private theorem mem_blk0 (t : Fin cfg0.N) (i : S50176x64.Idx) :
    i ∈ ((cfg0.win 3).blk t).view.set ↔ ∀ a : Fin 2, win0_3.index t a * S7168x64.size a ≤ (i a).val
      ∧ (i a).val < win0_3.index t a * S7168x64.size a + S7168x64.size a := by
  show i ∈ ((View.whole main_v38).slice (win0_3.rect t)).set ↔ _
  rw [View.set_slice_whole, Rect.mem_set_unit]
  exact Iff.rfl

/-- Every entry of the result is written back by some point: row `r` by point `r / 7168`. -/
private theorem owned0 (i : S50176x64.Idx) :
    ∃ t : Fin cfg0.N, (cfg0.win 3).flush t = true ∧ i ∈ ((cfg0.win 3).blk t).view.set := by
  have hi0 : (i 0).val < 50176 := (i 0).isLt
  have hi1 : (i 1).val < 64 := (i 1).isLt
  have hN : cfg0.N = 7 := N_0
  refine ⟨⟨(i 0).val / 7168, by rw [hN]; omega⟩, flush0_3 _, ?_⟩
  rw [mem_blk0]
  obtain ⟨-, -, -, -, -, -, e0, e1⟩ := idx0 ⟨(i 0).val / 7168, by rw [hN]; omega⟩
  intro a
  match a with
  | ⟨0, _⟩ =>
    show win0_3.index _ (0 : Fin 2) * 7168 ≤ (i 0).val ∧ (i 0).val < win0_3.index _ (0 : Fin 2) * 7168 + 7168
    rw [e0]
    show (i 0).val / 7168 * 7168 ≤ (i 0).val ∧ (i 0).val < (i 0).val / 7168 * 7168 + 7168
    omega
  | ⟨1, _⟩ =>
    show win0_3.index _ (1 : Fin 2) * 64 ≤ (i 1).val ∧ (i 1).val < win0_3.index _ (1 : Fin 2) * 64 + 64
    rw [e1]
    omega

end Kernel0

/-- Kernel 0's result array after its last grid point, at row `r` and column `f`: the product of the operand's row `r`
    with the weight's column `f`, plus the bias row's entry `f` (each block of rows is written once, by the grid point that owns it). -/
theorem arr0 (V : (c : Dev nD) → (b : Ref sig .tc) → Buf (Elt Ideal) ((c : Thread nD τ).loc b)) (c : Dev nD)
    (X : FVec Ideal S50176x640 .bf16) (W : FVec Ideal S640x64 .bf16) (B : FVec Ideal S1x64 .f32)
    (hX : V c (Pipeline.arrRef spec0 0) = X) (hW : V c (Pipeline.arrRef spec0 1) = W) (hB : V c (Pipeline.arrRef spec0 2) = B)
    (r : Fin 50176) (f : Fin 64) :
    ((dat0 (F := Ideal) V c).arrAt 3 cfg0.N : FVec Ideal S50176x64 .bf16) (ix2 r f)
      = (∑ k : Fin 640, X (ix2 r k) * W (ix2 k f)) + B (ix2 (0 : Fin 1) f) := by
  rw [(dat0 (F := Ideal) V c).arrAt_eq_of_cover 3 (lin0 X W B) (fun t _ => wrote0 V c X W B hX hW hB t) owned0]
  rfl

/-! ## Kernel 1: a 50176 × 64 operand times a 64 × 64 weight, plus a bias row -/

/-- What the body stores at row `p`, column `q` of its block: the row `p` of the operand's block times the column `q` of
    the weight, plus the bias at `q` (the product accumulates from zero; narrowing the result changes no ideal value). -/
private theorem pay1_apply (x0 : Vec Ideal S7168x64 .bf16) (x1 : Vec Ideal S64x64 .bf16) (x2 : Vec Ideal S1x64 .f32)
    (p : Fin 7168) (q : Fin 64) :
    (k1_pay1 (F := Ideal) x0 x1 x2 : FVec Ideal S7168x64 .bf16) (ix2 p q)
      = (∑ k : Fin 64, x0 (ix2 p k) * x1 (ix2 k q)) + x2 (ix2 (0 : Fin 1) q) := by
  unfold k1_pay1
  rw [truncf_apply, addf_apply, shapeCast_self, shapeCast_self, shapeCast_self,
    Cert.LibDot.matmul_zero_apply _ rfl rfl rfl rfl rfl rfl, broadcastTo_1b_ab_apply]

/-- The block index of each window at each of the 7 grid points: the operand's and the result's block is the point's
    own number down the rows; the weight and the bias are one block each. -/
private theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Kernel1

variable (V : (c : Dev nD) → (b : Ref sig .tc) → Buf (Elt Ideal) ((c : Thread nD τ).loc b)) (c : Dev nD)

/-- Row `p` of the operand's block at point `t` is row `7168 t + p` of the operand. -/
private theorem opnd1_at (X : FVec Ideal S50176x64 .bf16) (hX : V c (Pipeline.arrRef spec1 0) = X) (t : Fin cfg1.N)
    (p : Fin 7168) (k : Fin 64) (r : Fin 50176) (hr : r.val = t.val * 7168 + p.val) :
    (iblk1 (F := Ideal) V c 0 t : Vec Ideal S7168x64 .bf16) (ix2 p k) = X (ix2 r k) := by
  unfold iblk1
  rw [hX]
  show X (((cfg1.win 0).blk t).view.emb (ix2 p k)) = X (ix2 r k)
  congr 1
  funext a
  apply Fin.ext
  obtain ⟨e0, e1, -⟩ := idx1 t
  match a with
  | ⟨0, _⟩ =>
    show win1_0.index t (0 : Fin 2) * 7168 + 1 * p.val = r.val
    omega
  | ⟨1, _⟩ =>
    show win1_0.index t (1 : Fin 2) * 64 + 1 * k.val = k.val
    omega

/-- The weight's block at any point is the weight. -/
private theorem wgt1_at (W : FVec Ideal S64x64 .bf16) (hW : V c (Pipeline.arrRef spec1 1) = W) (t : Fin cfg1.N)
    (k : Fin 64) (q : Fin 64) :
    (iblk1 (F := Ideal) V c 1 t : Vec Ideal S64x64 .bf16) (ix2 k q) = W (ix2 k q) := by
  unfold iblk1
  rw [hW]
  show W (((cfg1.win 1).blk t).view.emb (ix2 k q)) = W (ix2 k q)
  congr 1
  funext a
  apply Fin.ext
  obtain ⟨-, -, e0, e1, -⟩ := idx1 t
  match a with
  | ⟨0, _⟩ =>
    show win1_1.index t (0 : Fin 2) * 64 + 1 * k.val = k.val
    omega
  | ⟨1, _⟩ =>
    show win1_1.index t (1 : Fin 2) * 64 + 1 * q.val = q.val
    omega

/-- The bias's block at any point is the bias row. -/
private theorem bias1_at (B : FVec Ideal S1x64 .f32) (hB : V c (Pipeline.arrRef spec1 2) = B) (t : Fin cfg1.N)
    (z : Fin 1) (q : Fin 64) :
    (iblk1 (F := Ideal) V c 2 t : Vec Ideal S1x64 .f32) (ix2 z q) = B (ix2 z q) := by
  unfold iblk1
  rw [hB]
  show B (((cfg1.win 2).blk t).view.emb (ix2 z q)) = B (ix2 z q)
  congr 1
  funext a
  apply Fin.ext
  obtain ⟨-, -, -, -, e0, e1, -⟩ := idx1 t
  match a with
  | ⟨0, _⟩ =>
    show win1_2.index t (0 : Fin 2) * 1 + 1 * z.val = z.val
    omega
  | ⟨1, _⟩ =>
    show win1_2.index t (1 : Fin 2) * 64 + 1 * q.val = q.val
    omega

/-- The whole result: at `(r, f)`, the operand's row `r` times the weight's column `f`, plus the bias at `f`. -/
private def lin1 (X : FVec Ideal S50176x64 .bf16) (W : FVec Ideal S64x64 .bf16) (B : FVec Ideal S1x64 .f32) :
    FVec Ideal S50176x64 .bf16 := fun i =>
  (∑ k : Fin 64, X (ix2 (i 0) k) * W (ix2 k (i 1))) + B (ix2 (0 : Fin 1) (i 1))

/-- What point `t` writes back is its block of rows of `lin1`: row `p` of the block is row `7168 t + p` of the
    result, computed from the same row of the operand. -/
private theorem wrote1 (X : FVec Ideal S50176x64 .bf16) (W : FVec Ideal S64x64 .bf16) (B : FVec Ideal S1x64 .f32)
    (hX : V c (Pipeline.arrRef spec1 0) = X) (hW : V c (Pipeline.arrRef spec1 1) = W) (hB : V c (Pipeline.arrRef spec1 2) = B)
    (t : Fin cfg1.N) :
    (dat1 (F := Ideal) V c).flushed 3 t = ((cfg1.win 3).blk t).view.read (Elt Ideal) (lin1 X W B) := by
  show (cfg1.win 3).cut (grid1.coords t) ((dat1 V c).after 3 t) = _
  rw [after1_3]
  unfold out1_3
  rw [View.canon_unit_zero zeros2]
  simp only [View.ld_unit_zero (S := S7168x64) zeros2, View.ld_unit_zero (S := S64x64) zeros2, View.ld_unit_zero (S := S1x64) zeros2]
  funext j
  obtain ⟨p, q, rfl⟩ : ∃ (p : Fin 7168) (q : Fin 64), j = ix2 p q := ⟨j 0, j 1, eq_ix2 j⟩
  obtain ⟨-, -, -, -, -, -, e0, e1⟩ := idx1 t
  have ht : t.val < 7 := lt_of_lt_of_eq t.isLt N_1
  have hr : t.val * 7168 + p.val < 50176 := by have := p.isLt; omega
  have he : ((cfg1.win 3).blk t).view.emb (ix2 p q) = ix2 (⟨t.val * 7168 + p.val, hr⟩ : Fin 50176) q := by
    funext a
    apply Fin.ext
    match a with
    | ⟨0, _⟩ =>
      show win1_3.index t (0 : Fin 2) * 7168 + 1 * p.val = t.val * 7168 + p.val
      omega
    | ⟨1, _⟩ =>
      show win1_3.index t (1 : Fin 2) * 64 + 1 * q.val = q.val
      omega
  show k1_pay1 (iblk1 V c 0 t) (iblk1 V c 1 t) (iblk1 V c 2 t) (ix2 p q)
    = lin1 X W B (((cfg1.win 3).blk t).view.emb (ix2 p q))
  rw [he]
  refine (pay1_apply (iblk1 V c 0 t) (iblk1 V c 1 t) (iblk1 V c 2 t) p q).trans ?_
  show _ = (∑ k : Fin 64, X (ix2 (⟨t.val * 7168 + p.val, hr⟩ : Fin 50176) k) * W (ix2 k q)) + B (ix2 (0 : Fin 1) q)
  rw [bias1_at V c B hB t 0 q]
  congr 1
  exact Finset.sum_congr rfl fun k _ => by
    rw [opnd1_at V c X hX t p k ⟨t.val * 7168 + p.val, hr⟩ rfl, wgt1_at V c W hW t k q]

/-- An entry of the result is in point `t`'s block iff each coordinate is in the block's range on its axis. -/
private theorem mem_blk1 (t : Fin cfg1.N) (i : S50176x64.Idx) :
    i ∈ ((cfg1.win 3).blk t).view.set ↔ ∀ a : Fin 2, win1_3.index t a * S7168x64.size a ≤ (i a).val
      ∧ (i a).val < win1_3.index t a * S7168x64.size a + S7168x64.size a := by
  show i ∈ ((View.whole main_v58).slice (win1_3.rect t)).set ↔ _
  rw [View.set_slice_whole, Rect.mem_set_unit]
  exact Iff.rfl

/-- Every entry of the result is written back by some point: row `r` by point `r / 7168`. -/
private theorem owned1 (i : S50176x64.Idx) :
    ∃ t : Fin cfg1.N, (cfg1.win 3).flush t = true ∧ i ∈ ((cfg1.win 3).blk t).view.set := by
  have hi0 : (i 0).val < 50176 := (i 0).isLt
  have hi1 : (i 1).val < 64 := (i 1).isLt
  have hN : cfg1.N = 7 := N_1
  refine ⟨⟨(i 0).val / 7168, by rw [hN]; omega⟩, flush1_3 _, ?_⟩
  rw [mem_blk1]
  obtain ⟨-, -, -, -, -, -, e0, e1⟩ := idx1 ⟨(i 0).val / 7168, by rw [hN]; omega⟩
  intro a
  match a with
  | ⟨0, _⟩ =>
    show win1_3.index _ (0 : Fin 2) * 7168 ≤ (i 0).val ∧ (i 0).val < win1_3.index _ (0 : Fin 2) * 7168 + 7168
    rw [e0]
    show (i 0).val / 7168 * 7168 ≤ (i 0).val ∧ (i 0).val < (i 0).val / 7168 * 7168 + 7168
    omega
  | ⟨1, _⟩ =>
    show win1_3.index _ (1 : Fin 2) * 64 ≤ (i 1).val ∧ (i 1).val < win1_3.index _ (1 : Fin 2) * 64 + 64
    rw [e1]
    omega

end Kernel1

/-- Kernel 1's result array after its last grid point, at row `r` and column `f`: the product of the operand's row `r`
    with the weight's column `f`, plus the bias row's entry `f` (each block of rows is written once, by the grid point that owns it). -/
theorem arr1 (V : (c : Dev nD) → (b : Ref sig .tc) → Buf (Elt Ideal) ((c : Thread nD τ).loc b)) (c : Dev nD)
    (X : FVec Ideal S50176x64 .bf16) (W : FVec Ideal S64x64 .bf16) (B : FVec Ideal S1x64 .f32)
    (hX : V c (Pipeline.arrRef spec1 0) = X) (hW : V c (Pipeline.arrRef spec1 1) = W) (hB : V c (Pipeline.arrRef spec1 2) = B)
    (r : Fin 50176) (f : Fin 64) :
    ((dat1 (F := Ideal) V c).arrAt 3 cfg1.N : FVec Ideal S50176x64 .bf16) (ix2 r f)
      = (∑ k : Fin 64, X (ix2 r k) * W (ix2 k f)) + B (ix2 (0 : Fin 1) f) := by
  rw [(dat1 (F := Ideal) V c).arrAt_eq_of_cover 3 (lin1 X W B) (fun t _ => wrote1 V c X W B hX hW hB t) owned1]
  rfl

/-! ## Kernel 2: a 50176 × 64 operand times a 64 × 640 weight, plus a bias row -/

/-- What the body stores at row `p`, column `q` of its block: the row `p` of the operand's block times the column `q` of
    the weight, plus the bias at `q` (the product accumulates from zero). -/
private theorem pay2_apply (x0 : Vec Ideal S1792x64 .bf16) (x1 : Vec Ideal S64x640 .bf16) (x2 : Vec Ideal S1x640 .f32)
    (p : Fin 1792) (q : Fin 640) :
    (k2_pay1 (F := Ideal) x0 x1 x2 : FVec Ideal S1792x640 .f32) (ix2 p q)
      = (∑ k : Fin 64, x0 (ix2 p k) * x1 (ix2 k q)) + x2 (ix2 (0 : Fin 1) q) := by
  unfold k2_pay1
  rw [addf_apply, shapeCast_self, shapeCast_self, shapeCast_self,
    Cert.LibDot.matmul_zero_apply _ rfl rfl rfl rfl rfl rfl, broadcastTo_1b_ab_apply]

/-- The block index of each window at each of the 28 grid points: the operand's and the result's block is the point's
    own number down the rows; the weight and the bias are one block each. -/
private theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Kernel2

variable (V : (c : Dev nD) → (b : Ref sig .tc) → Buf (Elt Ideal) ((c : Thread nD τ).loc b)) (c : Dev nD)

/-- Row `p` of the operand's block at point `t` is row `1792 t + p` of the operand. -/
private theorem opnd2_at (X : FVec Ideal S50176x64 .bf16) (hX : V c (Pipeline.arrRef spec2 0) = X) (t : Fin cfg2.N)
    (p : Fin 1792) (k : Fin 64) (r : Fin 50176) (hr : r.val = t.val * 1792 + p.val) :
    (iblk2 (F := Ideal) V c 0 t : Vec Ideal S1792x64 .bf16) (ix2 p k) = X (ix2 r k) := by
  unfold iblk2
  rw [hX]
  show X (((cfg2.win 0).blk t).view.emb (ix2 p k)) = X (ix2 r k)
  congr 1
  funext a
  apply Fin.ext
  obtain ⟨e0, e1, -⟩ := idx2 t
  match a with
  | ⟨0, _⟩ =>
    show win2_0.index t (0 : Fin 2) * 1792 + 1 * p.val = r.val
    omega
  | ⟨1, _⟩ =>
    show win2_0.index t (1 : Fin 2) * 64 + 1 * k.val = k.val
    omega

/-- The weight's block at any point is the weight. -/
private theorem wgt2_at (W : FVec Ideal S64x640 .bf16) (hW : V c (Pipeline.arrRef spec2 1) = W) (t : Fin cfg2.N)
    (k : Fin 64) (q : Fin 640) :
    (iblk2 (F := Ideal) V c 1 t : Vec Ideal S64x640 .bf16) (ix2 k q) = W (ix2 k q) := by
  unfold iblk2
  rw [hW]
  show W (((cfg2.win 1).blk t).view.emb (ix2 k q)) = W (ix2 k q)
  congr 1
  funext a
  apply Fin.ext
  obtain ⟨-, -, e0, e1, -⟩ := idx2 t
  match a with
  | ⟨0, _⟩ =>
    show win2_1.index t (0 : Fin 2) * 64 + 1 * k.val = k.val
    omega
  | ⟨1, _⟩ =>
    show win2_1.index t (1 : Fin 2) * 640 + 1 * q.val = q.val
    omega

/-- The bias's block at any point is the bias row. -/
private theorem bias2_at (B : FVec Ideal S1x640 .f32) (hB : V c (Pipeline.arrRef spec2 2) = B) (t : Fin cfg2.N)
    (z : Fin 1) (q : Fin 640) :
    (iblk2 (F := Ideal) V c 2 t : Vec Ideal S1x640 .f32) (ix2 z q) = B (ix2 z q) := by
  unfold iblk2
  rw [hB]
  show B (((cfg2.win 2).blk t).view.emb (ix2 z q)) = B (ix2 z q)
  congr 1
  funext a
  apply Fin.ext
  obtain ⟨-, -, -, -, e0, e1, -⟩ := idx2 t
  match a with
  | ⟨0, _⟩ =>
    show win2_2.index t (0 : Fin 2) * 1 + 1 * z.val = z.val
    omega
  | ⟨1, _⟩ =>
    show win2_2.index t (1 : Fin 2) * 640 + 1 * q.val = q.val
    omega

/-- The whole result: at `(r, f)`, the operand's row `r` times the weight's column `f`, plus the bias at `f`. -/
private def lin2 (X : FVec Ideal S50176x64 .bf16) (W : FVec Ideal S64x640 .bf16) (B : FVec Ideal S1x640 .f32) :
    FVec Ideal S50176x640 .f32 := fun i =>
  (∑ k : Fin 64, X (ix2 (i 0) k) * W (ix2 k (i 1))) + B (ix2 (0 : Fin 1) (i 1))

/-- What point `t` writes back is its block of rows of `lin2`: row `p` of the block is row `1792 t + p` of the
    result, computed from the same row of the operand. -/
private theorem wrote2 (X : FVec Ideal S50176x64 .bf16) (W : FVec Ideal S64x640 .bf16) (B : FVec Ideal S1x640 .f32)
    (hX : V c (Pipeline.arrRef spec2 0) = X) (hW : V c (Pipeline.arrRef spec2 1) = W) (hB : V c (Pipeline.arrRef spec2 2) = B)
    (t : Fin cfg2.N) :
    (dat2 (F := Ideal) V c).flushed 3 t = ((cfg2.win 3).blk t).view.read (Elt Ideal) (lin2 X W B) := by
  show (cfg2.win 3).cut (grid2.coords t) ((dat2 V c).after 3 t) = _
  rw [after2_3]
  unfold out2_3
  rw [View.canon_unit_zero zeros2]
  simp only [View.ld_unit_zero (S := S1792x64) zeros2, View.ld_unit_zero (S := S64x640) zeros2, View.ld_unit_zero (S := S1x640) zeros2]
  funext j
  obtain ⟨p, q, rfl⟩ : ∃ (p : Fin 1792) (q : Fin 640), j = ix2 p q := ⟨j 0, j 1, eq_ix2 j⟩
  obtain ⟨-, -, -, -, -, -, e0, e1⟩ := idx2 t
  have ht : t.val < 28 := lt_of_lt_of_eq t.isLt N_2
  have hr : t.val * 1792 + p.val < 50176 := by have := p.isLt; omega
  have he : ((cfg2.win 3).blk t).view.emb (ix2 p q) = ix2 (⟨t.val * 1792 + p.val, hr⟩ : Fin 50176) q := by
    funext a
    apply Fin.ext
    match a with
    | ⟨0, _⟩ =>
      show win2_3.index t (0 : Fin 2) * 1792 + 1 * p.val = t.val * 1792 + p.val
      omega
    | ⟨1, _⟩ =>
      show win2_3.index t (1 : Fin 2) * 640 + 1 * q.val = q.val
      omega
  show k2_pay1 (iblk2 V c 0 t) (iblk2 V c 1 t) (iblk2 V c 2 t) (ix2 p q)
    = lin2 X W B (((cfg2.win 3).blk t).view.emb (ix2 p q))
  rw [he]
  refine (pay2_apply (iblk2 V c 0 t) (iblk2 V c 1 t) (iblk2 V c 2 t) p q).trans ?_
  show _ = (∑ k : Fin 64, X (ix2 (⟨t.val * 1792 + p.val, hr⟩ : Fin 50176) k) * W (ix2 k q)) + B (ix2 (0 : Fin 1) q)
  rw [bias2_at V c B hB t 0 q]
  congr 1
  exact Finset.sum_congr rfl fun k _ => by
    rw [opnd2_at V c X hX t p k ⟨t.val * 1792 + p.val, hr⟩ rfl, wgt2_at V c W hW t k q]

/-- An entry of the result is in point `t`'s block iff each coordinate is in the block's range on its axis. -/
private theorem mem_blk2 (t : Fin cfg2.N) (i : S50176x640.Idx) :
    i ∈ ((cfg2.win 3).blk t).view.set ↔ ∀ a : Fin 2, win2_3.index t a * S1792x640.size a ≤ (i a).val
      ∧ (i a).val < win2_3.index t a * S1792x640.size a + S1792x640.size a := by
  show i ∈ ((View.whole main_v90).slice (win2_3.rect t)).set ↔ _
  rw [View.set_slice_whole, Rect.mem_set_unit]
  exact Iff.rfl

/-- Every entry of the result is written back by some point: row `r` by point `r / 1792`. -/
private theorem owned2 (i : S50176x640.Idx) :
    ∃ t : Fin cfg2.N, (cfg2.win 3).flush t = true ∧ i ∈ ((cfg2.win 3).blk t).view.set := by
  have hi0 : (i 0).val < 50176 := (i 0).isLt
  have hi1 : (i 1).val < 640 := (i 1).isLt
  have hN : cfg2.N = 28 := N_2
  refine ⟨⟨(i 0).val / 1792, by rw [hN]; omega⟩, flush2_3 _, ?_⟩
  rw [mem_blk2]
  obtain ⟨-, -, -, -, -, -, e0, e1⟩ := idx2 ⟨(i 0).val / 1792, by rw [hN]; omega⟩
  intro a
  match a with
  | ⟨0, _⟩ =>
    show win2_3.index _ (0 : Fin 2) * 1792 ≤ (i 0).val ∧ (i 0).val < win2_3.index _ (0 : Fin 2) * 1792 + 1792
    rw [e0]
    show (i 0).val / 1792 * 1792 ≤ (i 0).val ∧ (i 0).val < (i 0).val / 1792 * 1792 + 1792
    omega
  | ⟨1, _⟩ =>
    show win2_3.index _ (1 : Fin 2) * 640 ≤ (i 1).val ∧ (i 1).val < win2_3.index _ (1 : Fin 2) * 640 + 640
    rw [e1]
    omega

end Kernel2

/-- Kernel 2's result array after its last grid point, at row `r` and column `f`: the product of the operand's row `r`
    with the weight's column `f`, plus the bias row's entry `f` (each block of rows is written once, by the grid point that owns it). -/
theorem arr2 (V : (c : Dev nD) → (b : Ref sig .tc) → Buf (Elt Ideal) ((c : Thread nD τ).loc b)) (c : Dev nD)
    (X : FVec Ideal S50176x64 .bf16) (W : FVec Ideal S64x640 .bf16) (B : FVec Ideal S1x640 .f32)
    (hX : V c (Pipeline.arrRef spec2 0) = X) (hW : V c (Pipeline.arrRef spec2 1) = W) (hB : V c (Pipeline.arrRef spec2 2) = B)
    (r : Fin 50176) (f : Fin 640) :
    ((dat2 (F := Ideal) V c).arrAt 3 cfg2.N : FVec Ideal S50176x640 .f32) (ix2 r f)
      = (∑ k : Fin 64, X (ix2 r k) * W (ix2 k f)) + B (ix2 (0 : Fin 1) f) := by
  rw [(dat2 (F := Ideal) V c).arrAt_eq_of_cover 3 (lin2 X W B) (fun t _ => wrote2 V c X W B hX hW hB t) owned2]
  rfl

end Cert.KernelIdeal.GenV

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KHost.lean ====
/-
  The kernel program's host-side functions read at an entry, at the ideal instance, in the terms of the graph.

  The source and destination columns and the weight column are, operation for operation, the reference's. Padding a
  matrix to 50176 rows keeps its 50000 rows and adds zero rows; the change of float format is the identity on extended
  reals. The weight matrices change format only; the zero bias row is zero; the last bias is read as a row; the rows
  kept of the last product are its first 50000.
-/
import proofs.«402543_j10170482557309_3_alg».proof.Proof.KDefs
import proofs.«402543_j10170482557309_3_alg».proof.Proof.Spec
import proofs.«402543_j10170482557309_3_alg».proof.Proof.LibIndex
import proofs.«402543_j10170482557309_3_alg».proof.Proof.LibKeepdims
import proofs.«402543_j10170482557309_3_alg».proof.Proof.GraphFacts
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

open scoped BigOperators

namespace Cert.KernelIdeal.GenV

open Cert.KernelIdeal Cert.KernelIdeal.Gen Idealize.ShloMosaic Idealize.ShloMosaic.ValueIdx

/-! ## The graph's columns are the reference's -/

/-- The kernel program's source column is the reference's (the same operations of the edge array). -/
theorem src2_eq (e : Edges Ideal) : src2 (F := Ideal) e = Cert.ReferenceIdeal.ReadP.val_main_v5 (F := Ideal) e := by
  unfold src2 Cert.ReferenceIdeal.ReadP.val_main_v5 Cert.ReferenceIdeal.ReadP.val_main_v1 Cert.ReferenceIdeal.ReadP.val_main_v0
    Cert.ReferenceIdeal.ReadP.val_main_v4
  rfl

/-- The kernel program's destination column is the reference's. -/
theorem dst2_eq (e : Edges Ideal) : dst2 (F := Ideal) e = Cert.ReferenceIdeal.ReadP.val_main_v6 (F := Ideal) e := by
  unfold dst2 Cert.ReferenceIdeal.ReadP.val_main_v6 Cert.ReferenceIdeal.ReadP.val_main_v3 Cert.ReferenceIdeal.ReadP.val_main_v2
    Cert.ReferenceIdeal.ReadP.val_main_v4
  rfl

/-- The products of the inverse square roots of the degrees at the two ends of every edge are the reference's weights:
    the same operations of the edge array, one after the other. -/
private theorem normCol_eq (e : Edges Ideal) :
    mulf (Host.gather gather_S50000_S250000x1_S250000_n_0_n_n_0_1_1 (dinv e) (wrap 50000#32 (src2 e)))
      (Host.gather gather_S50000_S250000x1_S250000_n_0_n_n_0_1_1 (dinv e) (wrap 50000#32 (dst2 e)))
      = Cert.ReferenceIdeal.ReadP.val_main_v29 (F := Ideal) e := by
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25
    Cert.ReferenceIdeal.ReadP.val_main_v24 Cert.ReferenceIdeal.ReadP.val_main_v23 Cert.ReferenceIdeal.ReadP.val_main_v22 Cert.ReferenceIdeal.ReadP.val_main_v21 Cert.ReferenceIdeal.ReadP.val_main_v20
    Cert.ReferenceIdeal.ReadP.val_main_v19 Cert.ReferenceIdeal.ReadP.val_main_v18 Cert.ReferenceIdeal.ReadP.val_main_v17 Cert.ReferenceIdeal.ReadP.val_main_v16 Cert.ReferenceIdeal.ReadP.val_main_v15
    Cert.ReferenceIdeal.ReadP.val_main_v14 Cert.ReferenceIdeal.ReadP.val_main_v13 Cert.ReferenceIdeal.ReadP.val_main_v12 Cert.ReferenceIdeal.ReadP.val_main_v11 Cert.ReferenceIdeal.ReadP.val_main_v10
    Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_v5
    Cert.ReferenceIdeal.ReadP.val_main_v4 Cert.ReferenceIdeal.ReadP.val_main_v3 Cert.ReferenceIdeal.ReadP.val_main_v2 Cert.ReferenceIdeal.ReadP.val_main_v1 Cert.ReferenceIdeal.ReadP.val_main_v0
    Cert.ReferenceIdeal.ReadP.val_main_cst Cert.ReferenceIdeal.ReadP.val_main_cst_0 Cert.ReferenceIdeal.ReadP.val_main_cst_1
    Cert.ReferenceIdeal.ReadP.val_main_call0_v1 Cert.ReferenceIdeal.ReadP.val_main_call0_v0 Cert.ReferenceIdeal.ReadP.val_main_cst_2
    Cert.ReferenceIdeal.ReadP.val_main_c Cert.ReferenceIdeal.ReadP.val_main_c_3 Cert.ReferenceIdeal.ReadP.val_main_c_4 Cert.ReferenceIdeal.ReadP.val_main_c_5
    dinv deg wrap src2 dst2
  rfl

/-- The weight column at edge `k` is the graph's weight. -/
theorem normCol_apply (e : Edges Ideal) (k : Fin 250000) : normCol (F := Ideal) e (ix2 k (0 : Fin 1)) = Cert.Graph.wgt e k := by
  unfold normCol
  rw [normCol_eq e]
  show _ = Cert.ReferenceIdeal.ReadP.val_main_v29 (F := Ideal) e (ix1 k)
  exact broadcastInDim_apply _ bcast_S250000_S250000x1_0 _ (ix2 k (0 : Fin 1)) (ix1 k) fun a => by
    match a with
    | ⟨0, _⟩ =>
      show k.val = if (250000 : ℕ) = 1 then 0 else k.val
      exact (if_neg (by decide)).symm

/-! ## Padding, format changes, the bias rows, the kept rows -/

/-- A matrix of 50000 rows padded below with 176 rows of a value that is zero: the matrix on its rows, zero below. -/
private theorem pad176_apply {C : ℕ} (x : (⟨2, ![50000, C]⟩ : Shape).Idx → EReal) {u : Shape} (v : u.Idx → EReal)
    (h : (⟨2, ![50000, C]⟩ : Shape).Pads (![0, 0] : Fin 2 → Nat) ![176, 0] ![0, 0] ⟨2, ![50176, C]⟩) (hu : 0 < u.numel)
    (hv : ∀ j, v j = 0) (r : Fin 50176) (k : Fin C) :
    pad ⟨2, ![50176, C]⟩ ![0, 0] ![176, 0] ![0, 0] x v h hu (ix2 r k)
      = if h : r.val < 50000 then x (ix2 (⟨r.val, h⟩ : Fin 50000) k) else 0 := by
  by_cases hr : r.val < 50000
  · rw [dif_pos hr]
    refine pad_apply_of_inside _ _ _ x v h hu _ _ fun a => ?_
    match a with
    | ⟨0, _⟩ => show r.val = 0 + r.val * (0 + 1); omega
    | ⟨1, _⟩ => show k.val = 0 + k.val * (0 + 1); omega
  · rw [dif_neg hr, pad_apply_of_not_inside _ _ _ x v h hu _ (0 : Fin 2) ?_, hv]
    intro hh
    have h3 : (r.val - 0) / (0 + 1) < 50000 := hh.2.2
    omega

/-- The padding value, the integer zero converted, is zero. -/
private theorem padval_zero (j : S_.Idx) : (sitofp (F := Ideal) .f32 (constantI S_ 32 0#32)) j = 0 := by
  show (((0#32 : BitVec 32).toInt : ℝ) : EReal) = 0
  simp

/-- The padded feature matrix: the matrix on its 50000 rows, zero below. -/
theorem xpad_apply (x : (⟨S50000x640, .f32⟩ : BufTy).Contents (Elt Ideal)) (r : Fin 50176) (k : Fin 640) :
    xpad (F := Ideal) x (ix2 r k) = if h : r.val < 50000 then x (ix2 (⟨r.val, h⟩ : Fin 50000) k) else 0 := by
  unfold xpad
  rw [truncf_apply]
  exact pad176_apply x _ pads_S50000x640_S50176x640_01760_000 h_S_ padval_zero r k

/-- A padded 64-column matrix: the matrix on its 50000 rows, zero below. -/
theorem padT_apply (H : (⟨S50000x64, .f32⟩ : BufTy).Contents (Elt Ideal)) (r : Fin 50176) (k : Fin 64) :
    padT (F := Ideal) H (ix2 r k) = if h : r.val < 50000 then H (ix2 (⟨r.val, h⟩ : Fin 50000) k) else 0 := by
  unfold padT
  rw [truncf_apply]
  exact pad176_apply H _ pads_S50000x64_S50176x64_01760_000 h_S_ padval_zero r k

theorem wb1_apply (W : (⟨S640x64, .f32⟩ : BufTy).Contents (Elt Ideal)) (j : S640x64.Idx) : wb1 (F := Ideal) W j = W j := by
  rfl
theorem wb2_apply (W : (⟨S64x64, .f32⟩ : BufTy).Contents (Elt Ideal)) (j : S64x64.Idx) : wb2 (F := Ideal) W j = W j := by
  rfl
theorem wb3_apply (W : (⟨S64x640, .f32⟩ : BufTy).Contents (Elt Ideal)) (j : S64x640.Idx) : wb3 (F := Ideal) W j = W j := by
  rfl

/-- The zero bias row. -/
theorem zero64_apply (j : S1x64.Idx) : (zero64 (F := Ideal)) j = 0 := by
  unfold zero64
  rw [broadcastInDim_apply _ bcast_S_S1x64 _ j ix0 (fun a => a.elim0), constant_apply]
  exact Ideal.ofBits_zero_f32

/-- The last bias as a row. -/
theorem b3r_apply (b : (⟨S640, .f32⟩ : BufTy).Contents (Elt Ideal)) (f : Fin 640) : b3r (F := Ideal) b (ix2 (0 : Fin 1) f) = b (ix1 f) := by
  unfold b3r
  refine shapeCast_apply b shapeCasts_S640_S1x640 _ _ ?_
  rw [Shape.rowMajor_val_two, Shape.rowMajor_val_one]
  show f.val = 0 * 640 + f.val
  omega

/-- The rows kept of the last kernel's result. -/
theorem sliceOut_apply (R : (⟨S50176x640, .f32⟩ : BufTy).Contents (Elt Ideal)) (i : Fin 50000) (f : Fin 640) :
    sliceOut (F := Ideal) R (ix2 i f) = R (ix2 (⟨i.val, by omega⟩ : Fin 50176) f) := by
  unfold sliceOut
  refine extractStridedSlice_apply _ R slices_S50176x640_S50000x640_0_0 _ _ fun a => ?_
  match a with
  | ⟨0, _⟩ => show i.val = 0 + i.val; omega
  | ⟨1, _⟩ => show f.val = 0 + f.val; omega

end Cert.KernelIdeal.GenV

end
-- ==== Proof.KLayer.lean ====
/-
  One layer over a 50176-row product, and the last layer's propagation, in the terms of the graph.

  With every entry of the edge array a node number, a row number needs no moving up and no clamping: gathering the rows
  of a 50176-row product at the sources reads the rows below 50000 that the edges name, and the rows added into a node
  are those of the edges into it. So `hid` is one layer's propagation plus bias and positive part over the first 50000
  rows of the product it is given, and `prop3` is one propagation.
-/
import proofs.«402543_j10170482557309_3_alg».proof.Proof.KHost
import proofs.«402543_j10170482557309_3_alg».proof.Proof.LibIndex
import Idealize.ShloMosaic.Lib.Pipeline.Value
import Idealize.ShloMosaic.Lib.ValueIdx
import Idealize.ShloMosaic.Lib.Affine
import Idealize.ShloMosaic.PureOps.Ideal.Laws

set_option maxRecDepth 16384

noncomputable section

open scoped BigOperators

namespace Cert.KernelIdeal.GenV

open Cert.KernelIdeal Cert.KernelIdeal.Gen Idealize.ShloMosaic Idealize.ShloMosaic.ValueIdx

/-! ## The host operations of one layer read at an entry -/

/-- A column of row numbers read at edge `k`: a number that is not negative is not moved. -/
private theorem wrap_apply (n : BitVec 32) (v : (⟨1, ![250000]⟩ : Shape).Idx → BitVec 32) (k : Fin 250000)
    (h0 : 0 ≤ (v (ix1 k)).toInt) : wrap (F := Ideal) n v (ix2 k (0 : Fin 1)) = v (ix1 k) := by
  unfold wrap
  rw [broadcastInDim_apply ![0] bcast_S250000_S250000x1_0 _ (ix2 k (0 : Fin 1)) (ix1 k) (fun a => by
    match a with
    | ⟨0, _⟩ => rfl), select_apply]
  have hc : cmpi .slt v (broadcastInDim S250000 ![] bcast_S_S250000 (constantI S_ 32 0#32)) (ix1 k) = 0#1 :=
    eq_zero_of_ne_one fun h => by
      have h1 : (v (ix1 k)).toInt < (0#32 : BitVec 32).toInt := IntOp.cmpi_slt.mp h
      have h2 : (0#32 : BitVec 32).toInt = 0 := by decide
      omega
  rw [hc, select_zero]

/-- A vector made a column, read at `(k, 0)`. -/
private theorem col_apply {α : Type} (v : (⟨1, ![250000]⟩ : Shape).Idx → α) (k : Fin 250000) :
    broadcastInDim S250000x1 ![0] bcast_S250000_S250000x1_0 v (ix2 k (0 : Fin 1)) = v (ix1 k) :=
  broadcastInDim_apply ![0] bcast_S250000_S250000x1_0 v (ix2 k (0 : Fin 1)) (ix1 k) (fun a => by
    match a with
    | ⟨0, _⟩ => rfl)

/-- A column spread over 64 columns, read at `(k, f)`. -/
private theorem spread_apply {α : Type} (w : (⟨2, ![250000, 1]⟩ : Shape).Idx → α) (k : Fin 250000) (f : Fin 64) :
    broadcastInDim S250000x64 ![0, 1] bcast_S250000x1_S250000x64_0_1 w (ix2 k f) = w (ix2 k (0 : Fin 1)) :=
  broadcastInDim_apply ![0, 1] bcast_S250000x1_S250000x64_0_1 w (ix2 k f) (ix2 k (0 : Fin 1)) (fun a => by
    match a with
    | ⟨0, _⟩ => rfl
    | ⟨1, _⟩ => rfl)

/-- The zero matrix. -/
private theorem zeros_apply (j : (⟨2, ![50000, 64]⟩ : Shape).Idx) :
    broadcastInDim S50000x64 ![] bcast_S_S50000x64 (constant (F := Ideal) S_ .f32 0x00000000#32) j = 0 := by
  show Ideal.ofBits .f32 0x00000000#32 = 0
  exact Ideal.ofBits_zero_f32

/-- A bias vector made a row and spread over the rows, read at `(i, f)`. -/
private theorem bias_apply (b : (⟨1, ![64]⟩ : Shape).Idx → EReal) (i : Fin 50000) (f : Fin 64) :
    broadcastInDim S50000x64 ![0, 1] bcast_S1x64_S50000x64_0_1 (broadcastInDim S1x64 ![1] bcast_S64_S1x64_1 b) (ix2 i f) = b (ix1 f) := by
  rw [broadcastInDim_apply ![0, 1] bcast_S1x64_S50000x64_0_1 _ (ix2 i f) (ix2 (0 : Fin 1) f) (fun a => by
    match a with
    | ⟨0, _⟩ => rfl
    | ⟨1, _⟩ => rfl)]
  exact broadcastInDim_apply ![1] bcast_S64_S1x64_1 b (ix2 (0 : Fin 1) f) (ix1 f) (fun a => by
    match a with
    | ⟨0, _⟩ => rfl)

/-- The rows of an `N`-row matrix (`N` at least the node count) gathered at a column of row numbers, read at edge `k`
    whose number is the node `s`: that node's row. -/
private theorem gather_at {α : Type} {N : ℕ} (hN : 50000 ≤ N) (g : GatherDims ⟨2, ![N, 64]⟩ ⟨2, ![250000, 1]⟩ ⟨2, ![250000, 64]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, 64])
    (X : (⟨2, ![N, 64]⟩ : Shape).Idx → α) (n : BitVec 32) (v : (⟨1, ![250000]⟩ : Shape).Idx → BitVec 32)
    (k : Fin 250000) (s : Fin 50000) (hs : (v (ix1 k)).toInt = (s.val : ℤ)) (f : Fin 64) :
    Host.gather g X (wrap (F := Ideal) n v) (ix2 k f) = X (ix2 (⟨s.val, by omega⟩ : Fin N) f) := by
  rw [Cert.LibIndex.gather_row_apply_of (by omega) g h1 h2 h3 h4 h5 h6 h7]
  refine congrArg (fun r : Fin N => X (ix2 r f)) (Fin.ext ?_)
  show min (wrap (F := Ideal) n v (ix2 k (0 : Fin 1))).toInt.toNat (N - 1) = s.val
  rw [wrap_apply n v k (by omega), hs, Int.toNat_natCast]
  have := s.isLt
  omega

/-- Rows added into the zero matrix at a column of row numbers, read at `(i, f)`: the sum of column `f` of the rows
    whose number is `i`. -/
private theorem scatter_at (v : (⟨1, ![250000]⟩ : Shape).Idx → BitVec 32) (upd : FVec Ideal ⟨2, ![250000, 64]⟩ .f32)
    (i : Fin 50000) (f : Fin 64) :
    Host.scatterAdd (F := Ideal) scatter_S50000x64_S250000x1_S250000x64_1_0_0_1
        (broadcastInDim S50000x64 ![] bcast_S_S50000x64 (constant S_ .f32 0x00000000#32))
        (broadcastInDim S250000x1 ![0] bcast_S250000_S250000x1_0 v) upd (ix2 i f)
      = ∑ k : Fin 250000, if (v (ix1 k)).toInt = (i.val : ℤ) then upd (ix2 k f) else 0 := by
  rw [Cert.LibIndex.scatterAdd_row_apply_of scatter_S50000x64_S250000x1_S250000x64_1_0_0_1 rfl rfl rfl rfl, zeros_apply, zero_add]
  refine Finset.sum_congr rfl fun k _ => ?_
  rw [col_apply]

/-- The last layer's propagation at `(i, f)`, over any reading of the edge columns as nodes and of the weight column. -/
private theorem prop3_core (H : (⟨S50000x64, .f32⟩ : BufTy).Contents (Elt Ideal)) (e : Edges Ideal)
    (s d : Fin 250000 → Fin 50000) (w : Fin 250000 → EReal)
    (hs : ∀ k, (src2 (F := Ideal) e (ix1 k)).toInt = ((s k).val : ℤ))
    (hd : ∀ k, (dst2 (F := Ideal) e (ix1 k)).toInt = ((d k).val : ℤ))
    (hw : ∀ k, normCol (F := Ideal) e (ix2 k (0 : Fin 1)) = w k) (i : Fin 50000) (f : Fin 64) :
    prop3 (F := Ideal) H e (ix2 i f) = ∑ k : Fin 250000, if d k = i then H (ix2 (s k) f) * w k else 0 := by
  unfold prop3
  rw [scatter_at]
  refine Finset.sum_congr rfl fun k _ => ?_
  rw [mulf_apply, gather_at (le_refl _) gather_S50000x64_S250000x1_S250000x64_1_0_n_n_0_1_164 rfl rfl rfl rfl rfl rfl rfl H _ _ k (s k) (hs k) f,
    spread_apply, hw k, hd k]
  exact if_congr ⟨fun h => Fin.ext (by exact_mod_cast h), fun h => by rw [h]⟩ rfl rfl

/-- One layer at `(i, f)` over a product whose first 50000 rows are `D`, over any reading of the edge columns as nodes
    and of the weight column. -/
private theorem hid_core (T : (⟨S50176x64, .bf16⟩ : BufTy).Contents (Elt Ideal)) (e : Edges Ideal) (b : (⟨S64, .f32⟩ : BufTy).Contents (Elt Ideal))
    (s d : Fin 250000 → Fin 50000) (w : Fin 250000 → EReal)
    (hs : ∀ k, (src2 (F := Ideal) e (ix1 k)).toInt = ((s k).val : ℤ))
    (hd : ∀ k, (dst2 (F := Ideal) e (ix1 k)).toInt = ((d k).val : ℤ))
    (hw : ∀ k, normCol (F := Ideal) e (ix2 k (0 : Fin 1)) = w k)
    (D : Fin 50000 → Fin 64 → EReal)
    (hT : ∀ (v : Fin 50000) (f : Fin 64), T (ix2 (⟨v.val, by omega⟩ : Fin 50176) f) = D v f) (i : Fin 50000) (f : Fin 64) :
    hid (F := Ideal) T e b (ix2 i f) = max ((∑ k : Fin 250000, if d k = i then D (s k) f * w k else 0) + b (ix1 f)) 0 := by
  unfold hid
  rw [maximumf_apply, addf_apply, zeros_apply, bias_apply, scatter_at]
  refine congrArg (fun x : EReal => max (x + b (ix1 f)) 0) (Finset.sum_congr rfl fun k _ => ?_)
  rw [mulf_apply, extf_apply, gather_at (by omega) gather_S50176x64_S250000x1_S250000x64_1_0_n_n_0_1_164 rfl rfl rfl rfl rfl rfl rfl T _ _ k (s k) (hs k) f,
    spread_apply, hw k, hd k, hT (s k) f]
  exact if_congr ⟨fun h => Fin.ext (by exact_mod_cast h), fun h => by rw [h]⟩ rfl rfl

/-- With every entry of the edge array a node number, the two index columns read signed are the graph's nodes. -/
private theorem src2_toInt (e : Edges Ideal) (he : Cert.Gcn.InRange e) (k : Fin 250000) :
    (src2 (F := Ideal) e (ix1 k)).toInt = ((Cert.Graph.srcF e k).val : ℤ) := by
  rw [src2_eq]; exact Cert.Graph.src_toInt e he k
private theorem dst2_toInt (e : Edges Ideal) (he : Cert.Gcn.InRange e) (k : Fin 250000) :
    (dst2 (F := Ideal) e (ix1 k)).toInt = ((Cert.Graph.dstF e k).val : ℤ) := by
  rw [dst2_eq]; exact Cert.Graph.dst_toInt e he k

/-! ## The two host functions in the terms of the graph -/

/-- `hid` of a product `T` whose first 50000 rows are `D`: propagate `D`, add the bias, positive part. -/
theorem hid_apply (T : (⟨S50176x64, .bf16⟩ : BufTy).Contents (Elt Ideal)) (e : Edges Ideal) (b : (⟨S64, .f32⟩ : BufTy).Contents (Elt Ideal))
    (he : Cert.Gcn.InRange e) (D : Fin 50000 → Fin 64 → EReal)
    (hT : ∀ (v : Fin 50000) (f : Fin 64), T (ix2 (⟨v.val, by omega⟩ : Fin 50176) f) = D v f) (i : Fin 50000) (f : Fin 64) :
    hid (F := Ideal) T e b (ix2 i f)
      = max (Cert.Gcn.prop (Cert.Graph.srcF e) (Cert.Graph.dstF e) (Cert.Graph.wgt e) D i f + b (ix1 f)) 0 := by
  exact hid_core T e b _ _ _ (src2_toInt e he) (dst2_toInt e he) (normCol_apply e) D hT i f

/-- `prop3`: one propagation of a node matrix. -/
theorem prop3_apply (H : (⟨S50000x64, .f32⟩ : BufTy).Contents (Elt Ideal)) (e : Edges Ideal) (he : Cert.Gcn.InRange e)
    (i : Fin 50000) (f : Fin 64) :
    prop3 (F := Ideal) H e (ix2 i f)
      = Cert.Gcn.prop (Cert.Graph.srcF e) (Cert.Graph.dstF e) (Cert.Graph.wgt e) (Cert.Gcn.mat H) i f := by
  exact prop3_core H e _ _ _ (src2_toInt e he) (dst2_toInt e he) (normCol_apply e) i f

end Cert.KernelIdeal.GenV

end
-- ==== Proof.KValue.lean ====
/-
  The kernel program's result, entry by entry, is the three layers with the last one propagating first:
  `Cert.Gcn.kerOut` of the graph read off the edge array and of the feature, weight and bias arrays.

  The first kernel multiplies the padded features by the first weights; its first 50000 rows are the product the first
  layer propagates. The second does the same for the first layer's result, the third multiplies the propagated second
  layer's result by the last weights and adds the last bias; the rows kept are the first 50000.
-/
import proofs.«402543_j10170482557309_3_alg».proof.Proof.KFold
import proofs.«402543_j10170482557309_3_alg».proof.Proof.KRegion
import proofs.«402543_j10170482557309_3_alg».proof.Proof.KLayer

set_option maxRecDepth 16384

noncomputable section

open scoped BigOperators

namespace Cert.KernelIdeal.GenV

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-! ## A padded matrix read at one of its first 50000 rows -/

private theorem xpad_low (x : (⟨S50000x640, .f32⟩ : BufTy).Contents (Elt Ideal)) (v : Fin 50000) (k : Fin 640) :
    xpad (F := Ideal) x (ix2 (⟨v.val, by omega⟩ : Fin 50176) k) = x (ix2 v k) := by
  rw [xpad_apply, dif_pos v.isLt]

private theorem padT_low (H : (⟨S50000x64, .f32⟩ : BufTy).Contents (Elt Ideal)) (v : Fin 50000) (k : Fin 64) :
    padT (F := Ideal) H (ix2 (⟨v.val, by omega⟩ : Fin 50176) k) = H (ix2 v k) := by
  rw [padT_apply, dif_pos v.isLt]

/-! ## The first layer -/

/-- The first kernel's result, on its first 50000 rows, is the features times the first weights. -/
private theorem prod1 (c : Dev nD) (v : Fin 50000) (f : Fin 64) :
    (((dat0 (V5 m ρ) c).arrAt 3 cfg0.N) : FVec Ideal S50176x64 .bf16) (ix2 (⟨v.val, by omega⟩ : Fin 50176) f) = (Cert.Gcn.mm (Cert.Gcn.mat (m ((c : Thread nD τ).loc main_arg0))) (Cert.Gcn.mat (m ((c : Thread nD τ).loc main_arg2)))) v f := by
  rw [arr0 (V5 m ρ) c _ _ _ (in0_0 m ρ c) (in0_1 m ρ c) (in0_2 m ρ c) ⟨v.val, by omega⟩ f, zero64_apply, add_zero]
  unfold Cert.Gcn.mm
  show (_ : EReal) = _
  refine Finset.sum_congr rfl fun k _ => ?_
  rw [xpad_low, wb1_apply]

/-- The first layer's result. -/
private theorem lay1 (c : Dev nD) (he : Cert.Gcn.InRange (m ((c : Thread nD τ).loc main_arg1))) (i : Fin 50000) (f : Fin 64) :
    (hid (F := Ideal) ((dat0 (V5 m ρ) c).arrAt 3 cfg0.N) (m ((c : Thread nD τ).loc main_arg1)) (m ((c : Thread nD τ).loc main_arg3))) (ix2 i f) = (Cert.Gcn.relu (Cert.Gcn.conv (Cert.Graph.srcF (m ((c : Thread nD τ).loc main_arg1))) (Cert.Graph.dstF (m ((c : Thread nD τ).loc main_arg1))) (Cert.Graph.wgt (m ((c : Thread nD τ).loc main_arg1))) (Cert.Gcn.mat (m ((c : Thread nD τ).loc main_arg0))) (Cert.Gcn.mat (m ((c : Thread nD τ).loc main_arg2))) (Cert.Gcn.vec (m ((c : Thread nD τ).loc main_arg3))))) i f :=
  hid_apply ((dat0 (V5 m ρ) c).arrAt 3 cfg0.N) (m ((c : Thread nD τ).loc main_arg1)) (m ((c : Thread nD τ).loc main_arg3)) he (Cert.Gcn.mm (Cert.Gcn.mat (m ((c : Thread nD τ).loc main_arg0))) (Cert.Gcn.mat (m ((c : Thread nD τ).loc main_arg2)))) (prod1 m ρ c) i f

/-! ## The second layer -/

/-- The second kernel's result, on its first 50000 rows, is the first layer's result times the second weights. -/
private theorem prod2 (c : Dev nD) (he : Cert.Gcn.InRange (m ((c : Thread nD τ).loc main_arg1))) (v : Fin 50000) (f : Fin 64) :
    (((dat1 (V11 m ρ) c).arrAt 3 cfg1.N) : FVec Ideal S50176x64 .bf16) (ix2 (⟨v.val, by omega⟩ : Fin 50176) f) = (Cert.Gcn.mm (Cert.Gcn.relu (Cert.Gcn.conv (Cert.Graph.srcF (m ((c : Thread nD τ).loc main_arg1))) (Cert.Graph.dstF (m ((c : Thread nD τ).loc main_arg1))) (Cert.Graph.wgt (m ((c : Thread nD τ).loc main_arg1))) (Cert.Gcn.mat (m ((c : Thread nD τ).loc main_arg0))) (Cert.Gcn.mat (m ((c : Thread nD τ).loc main_arg2))) (Cert.Gcn.vec (m ((c : Thread nD τ).loc main_arg3))))) (Cert.Gcn.mat (m ((c : Thread nD τ).loc main_arg4)))) v f := by
  rw [arr1 (V11 m ρ) c _ _ _ (in1_0 m ρ c) (in1_1 m ρ c) (in1_2 m ρ c) ⟨v.val, by omega⟩ f, zero64_apply, add_zero]
  unfold Cert.Gcn.mm
  show (_ : EReal) = _
  refine Finset.sum_congr rfl fun k _ => ?_
  rw [padT_low, wb2_apply, lay1 m ρ c he]

/-- The hidden matrix: the second layer's result. -/
private theorem lay2 (c : Dev nD) (he : Cert.Gcn.InRange (m ((c : Thread nD τ).loc main_arg1))) (i : Fin 50000) (f : Fin 64) :
    (hid (F := Ideal) ((dat1 (V11 m ρ) c).arrAt 3 cfg1.N) (m ((c : Thread nD τ).loc main_arg1)) (m ((c : Thread nD τ).loc main_arg5))) (ix2 i f) = (Cert.Gcn.hidden (Cert.Graph.srcF (m ((c : Thread nD τ).loc main_arg1))) (Cert.Graph.dstF (m ((c : Thread nD τ).loc main_arg1))) (Cert.Graph.wgt (m ((c : Thread nD τ).loc main_arg1))) (Cert.Gcn.mat (m ((c : Thread nD τ).loc main_arg0))) (Cert.Gcn.mat (m ((c : Thread nD τ).loc main_arg2))) (Cert.Gcn.vec (m ((c : Thread nD τ).loc main_arg3))) (Cert.Gcn.mat (m ((c : Thread nD τ).loc main_arg4))) (Cert.Gcn.vec (m ((c : Thread nD τ).loc main_arg5)))) i f :=
  hid_apply ((dat1 (V11 m ρ) c).arrAt 3 cfg1.N) (m ((c : Thread nD τ).loc main_arg1)) (m ((c : Thread nD τ).loc main_arg5)) he (Cert.Gcn.mm (Cert.Gcn.relu (Cert.Gcn.conv (Cert.Graph.srcF (m ((c : Thread nD τ).loc main_arg1))) (Cert.Graph.dstF (m ((c : Thread nD τ).loc main_arg1))) (Cert.Graph.wgt (m ((c : Thread nD τ).loc main_arg1))) (Cert.Gcn.mat (m ((c : Thread nD τ).loc main_arg0))) (Cert.Gcn.mat (m ((c : Thread nD τ).loc main_arg2))) (Cert.Gcn.vec (m ((c : Thread nD τ).loc main_arg3))))) (Cert.Gcn.mat (m ((c : Thread nD τ).loc main_arg4)))) (prod2 m ρ c he) i f

/-! ## The last layer: propagate, multiply, add the bias; keep the first 50000 rows -/

/-- The returned array at row `i`, column `f`. -/
theorem ker_apply (c : Dev nD) (he : Cert.Gcn.InRange (m ((c : Thread nD τ).loc main_arg1))) (i : Fin 50000) (f : Fin 640) :
    (W19 m ρ c (Proc.devRef .tc main_v91) : FVec Ideal S50000x640 .f32) (ix2 i f)
      = Cert.Gcn.kerOut (Cert.Graph.srcF (m ((c : Thread nD τ).loc main_arg1))) (Cert.Graph.dstF (m ((c : Thread nD τ).loc main_arg1)))
          (Cert.Graph.wgt (m ((c : Thread nD τ).loc main_arg1))) (Cert.Gcn.mat (m ((c : Thread nD τ).loc main_arg0)))
          (Cert.Gcn.mat (m ((c : Thread nD τ).loc main_arg2))) (Cert.Gcn.vec (m ((c : Thread nD τ).loc main_arg3)))
          (Cert.Gcn.mat (m ((c : Thread nD τ).loc main_arg4))) (Cert.Gcn.vec (m ((c : Thread nD τ).loc main_arg5)))
          (Cert.Gcn.mat (m ((c : Thread nD τ).loc main_arg6))) (Cert.Gcn.vec (m ((c : Thread nD τ).loc main_arg7))) i f := by
  have hm : Cert.Gcn.mat (hid (F := Ideal) ((dat1 (V11 m ρ) c).arrAt 3 cfg1.N) (m ((c : Thread nD τ).loc main_arg1)) (m ((c : Thread nD τ).loc main_arg5))) = (Cert.Gcn.hidden (Cert.Graph.srcF (m ((c : Thread nD τ).loc main_arg1))) (Cert.Graph.dstF (m ((c : Thread nD τ).loc main_arg1))) (Cert.Graph.wgt (m ((c : Thread nD τ).loc main_arg1))) (Cert.Gcn.mat (m ((c : Thread nD τ).loc main_arg0))) (Cert.Gcn.mat (m ((c : Thread nD τ).loc main_arg2))) (Cert.Gcn.vec (m ((c : Thread nD τ).loc main_arg3))) (Cert.Gcn.mat (m ((c : Thread nD τ).loc main_arg4))) (Cert.Gcn.vec (m ((c : Thread nD τ).loc main_arg5)))) := funext fun a => funext fun b => lay2 m ρ c he a b
  refine (congrFun (out m ρ c) (ix2 i f)).trans ?_
  rw [sliceOut_apply, arr2 (V17 m ρ) c _ _ _ (in2_0 m ρ c) (in2_1 m ρ c) (in2_2 m ρ c) ⟨i.val, by omega⟩ f, b3r_apply]
  unfold Cert.Gcn.kerOut Cert.Gcn.mm
  refine congrArg₂ (· + ·) (Finset.sum_congr rfl fun k _ => ?_) rfl
  rw [padT_low, prop3_apply _ _ he, wb3_apply, hm]

end Cert.KernelIdeal.GenV

end
-- ==== Proof.lean ====
/-
  A three-layer graph convolution (50000 nodes, 200000 edges and one self loop per node; features 640 → 64 → 64 → 640)
  whose dense transforms run as three matrix-product kernels over row blocks of zero-padded node matrices, against the
  plain reference, as extended reals.

  Both programs read the same graph off the edge array: sources, destinations, and the weight of an edge, the product
  of the inverse square roots of its ends' degrees. The first two layers are the same computation on both sides: the
  kernels' padded rows are never read, because every node number in the edge array is below 50000 (the precondition;
  outside it the reference itself would index out of range, and the two programs clamp differently). The last layer
  differs by an order: the reference multiplies by the weights and then propagates, the kernel propagates the narrow
  matrix and then multiplies. The two orders agree because every entry involved is a real number: the inputs by the
  precondition, the edge weights always, and sums, products and positive parts of reals are reals; on the extended
  reals a product does not distribute over a sum in general.

  The kernel program's run: the launch theorem over the generated segments, with the result array named (Proof/KRun.lean),
  the fold of the host operations and the three kernels' arrays read entry by entry (Proof/KFold.lean, KRegion.lean,
  KHost.lean, KValue.lean). The reference's run and its operations one at a time (Proof/RefRun.lean, RefRead.lean), its
  value entry by entry (Proof/RefValue.lean). The graph (Proof/GraphFacts.lean), the precondition read
  (Proof/PreFacts.lean), the layers and the law that joins the two orders (Proof/Spec.lean).
-/
import proofs.«402543_j10170482557309_3_alg».proof.Defs
import proofs.«402543_j10170482557309_3_alg».proof.Proof.Gen.Kernel
import proofs.«402543_j10170482557309_3_alg».proof.Proof.Gen.Kernel.Skeleton
import proofs.«402543_j10170482557309_3_alg».proof.Proof.Gen.Kernel.Launch
import proofs.«402543_j10170482557309_3_alg».proof.Proof.Gen.Kernel.Points
import proofs.«402543_j10170482557309_3_alg».proof.Proof.Gen.Kernel.Frame
import proofs.«402543_j10170482557309_3_alg».proof.Proof.Gen.KernelIdeal
import proofs.«402543_j10170482557309_3_alg».proof.Proof.Gen.KernelIdeal.Skeleton
import proofs.«402543_j10170482557309_3_alg».proof.Proof.Gen.KernelIdeal.Launch
import proofs.«402543_j10170482557309_3_alg».proof.Proof.Gen.KernelIdeal.Points
import proofs.«402543_j10170482557309_3_alg».proof.Proof.Gen.KernelIdeal.Frame
import proofs.«402543_j10170482557309_3_alg».proof.Proof.Gen.ReferenceIdeal
import proofs.«402543_j10170482557309_3_alg».proof.Proof.Gen.Pre_finite_inputs
import proofs.«402543_j10170482557309_3_alg».proof.Proof.RefRun
import proofs.«402543_j10170482557309_3_alg».proof.Proof.RefRead
import proofs.«402543_j10170482557309_3_alg».proof.Proof.Spec
import proofs.«402543_j10170482557309_3_alg».proof.Proof.PreFacts
import proofs.«402543_j10170482557309_3_alg».proof.Proof.GraphFacts
import proofs.«402543_j10170482557309_3_alg».proof.Proof.RefValue
import proofs.«402543_j10170482557309_3_alg».proof.Proof.KRun
import proofs.«402543_j10170482557309_3_alg».proof.Proof.KValue
import Idealize.ShloMosaic.Adequacy
import Idealize.ShloMosaic.Init

set_option maxRecDepth 16384

noncomputable section

namespace Cert.Proof

open Idealize.ShloMosaic Idealize.ShloMosaic.ValueIdx Idealize.SL.Sem

theorem frame_k [Cert.Kernel.Facts] [Cert.Pre_finite_inputs.Facts] : Cert.frame_Kernel := fun m ρ _ => Cert.Kernel.Gen.frame m ρ

theorem frame_ki [Cert.KernelIdeal.Facts] [Cert.Pre_finite_inputs.Facts] : Cert.frame_KernelIdeal := fun m ρ _ => Cert.KernelIdeal.Gen.frame m ρ

/-- The reference has no kernel: its frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- Both programs end with the same array: entry `(i, f)` of the kernel program's is the three layers with the last one
    propagating first, of the reference's the three layers in the plain order, over the same graph and arrays; the
    precondition makes every entry real, and there the two orders agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W19 m ρ c (Proc.devRef .tc Cert.KernelIdeal.main_v91), Cert.KernelIdeal.GenV.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  obtain ⟨hE, h0, h2, h3, h4, h5, h6, h7⟩ := Cert.PreFacts.of_pre _ _ _ _ _ _ _ _ (hpre c)
  rw [Cert.ReferenceIdeal.ReadP.val_main_v82_eq, a0, a1, a2, a3, a4, a5, a6, a7]
  funext j
  obtain ⟨i, f, rfl⟩ : ∃ (i : Fin 50000) (f : Fin 640), j = ix2 i f := ⟨j 0, j 1, eq_ix2 j⟩
  refine (Cert.RefValue.ref_apply _ _ _ _ _ _ _ _ hE i f).trans ?_
  refine Eq.trans ?_ (Cert.KernelIdeal.GenV.ker_apply m ρ c hE i f).symm
  exact (Cert.Gcn.kerOut_eq_refOut _ _ _ _ _ _ _ _ _ _ (Cert.Graph.wgt_real _)
    (fun a b => h0 (ix2 a b)) (fun a b => h2 (ix2 a b)) (fun a => h3 (ix1 a)) (fun a b => h4 (ix2 a b)) (fun a => h5 (ix1 a))
    (fun a b => h6 (ix2 a b)) i f).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
